-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192 : Shape := ⟨1, ![8192]⟩
abbrev S8192x16 : Shape := ⟨2, ![8192, 16]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S8192 32) (main_v15 : IVec S_ 1) (main_c_5 : IVec S_ 32) : IVec S_ 1 :=
  let main_v16 : IVec S8192 32 := broadcastInDim S8192 ![] bcast_S_S8192 main_c_5
  let main_v17 : IVec S8192 1 := cmpi .sge main_arg2 main_v16
  let main_c_6 : IVec S_ 32 := constantI S_ 32 8192#32
  let main_v18 : IVec S8192 32 := broadcastInDim S8192 ![] bcast_S_S8192 main_c_6
  let main_v19 : IVec S8192 1 := cmpi .slt main_arg2 main_v18
  let main_v20 : IVec S8192 1 := andi main_v17 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S4096x8192 .f32) (main_arg1 : IVec S8192 32) (main_arg2 : IVec S8192 32) (main_arg3 : FVec F S8192x16 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x16 .f32 := Host.absf main_arg3
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 8192#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S4096x8192 : Shape := ⟨2, ![4096, 8192]⟩
abbrev S8192 : Shape := ⟨1, ![8192]⟩
abbrev S8192x16 : Shape := ⟨2, ![8192, 16]⟩
abbrev S16x4 : Shape := ⟨2, ![16, 4]⟩
abbrev S_ : Shape := ⟨0, ![]⟩
abbrev S8192x1 : Shape := ⟨2, ![8192, 1]⟩
abbrev S8192x4 : Shape := ⟨2, ![8192, 4]⟩
abbrev S4x8192 : Shape := ⟨2, ![4, 8192]⟩
abbrev S1x8192 : Shape := ⟨2, ![1, 8192]⟩
abbrev S2x8192 : Shape := ⟨2, ![2, 8192]⟩
abbrev S512x2048 : Shape := ⟨2, ![512, 2048]⟩
abbrev S2x1024 : Shape := ⟨2, ![2, 1024]⟩
abbrev S4x1024 : Shape := ⟨2, ![4, 1024]⟩
abbrev S512x1024 : Shape := ⟨2, ![512, 1024]⟩
abbrev S2048x1 : Shape := ⟨2, ![2048, 1]⟩
abbrev S1x1024 : Shape := ⟨2, ![1, 1024]⟩
abbrev S1x2048 : Shape := ⟨2, ![1, 2048]⟩
abbrev S2048x2048 : Shape := ⟨2, ![2048, 2048]⟩

abbrev nBuf : Space → Nat
  | .hbm => 26
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192, .i32⟩
  | .hbm, ⟨2, _⟩ => ⟨S8192, .i32⟩
  | .hbm, ⟨3, _⟩ => ⟨S8192x16, .f32⟩
  | .hbm, ⟨4, _⟩ => ⟨S16x4, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x16, .f32⟩
  | .hbm, ⟨18, _⟩ => ⟨S8192x16, .f32⟩
  | .hbm, ⟨19, _⟩ => ⟨S8192x4, .f32⟩
  | .hbm, ⟨20, _⟩ => ⟨S4x8192, .f32⟩
  | .hbm, ⟨21, _⟩ => ⟨S1x8192, .i32⟩
  | .hbm, ⟨22, _⟩ => ⟨S1x8192, .i32⟩
  | .hbm, ⟨23, _⟩ => ⟨S2x8192, .i32⟩
  | .hbm, ⟨24, _⟩ => ⟨S4096x8192, .bf16⟩
  | .hbm, ⟨25, _⟩ => ⟨S4096x8192, .f32⟩
  | .local _ .vmem, ⟨0, _⟩ => ⟨S512x2048, .bf16⟩
  | .local _ .vmem, ⟨1, _⟩ => ⟨S512x2048, .bf16⟩
  | .local _ .vmem, ⟨2, _⟩ => ⟨S2x1024, .i32⟩
  | .local _ .vmem, ⟨3, _⟩ => ⟨S2x1024, .i32⟩
  | .local _ .vmem, ⟨4, _⟩ => ⟨S4x1024, .f32⟩
  | .local _ .vmem, ⟨5, _⟩ => ⟨S4x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  transposes_S8192x4_S4x8192_1_0 : S8192x4.Transposes [1, 0] S4x8192
  bcast_S8192_S1x8192_1 : S8192.BroadcastsInDim S1x8192 (![1] : Fin 1 → Fin S1x8192.rank)
  concatenates_S1x8192_S1x8192_S2x8192_d0 : Shape.Concatenates [S1x8192, S1x8192] S2x8192 0
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S2048x1_d0_w32 : S2048x1.Iotas .tc 32 [0]
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  slices_S2x1024_o0_0_S1x1024 : S2x1024.Slices ![0, 0] S1x1024
  slices_S2x1024_o1_0_S1x1024 : S2x1024.Slices ![1, 0] S1x1024
  concatenates_S1x1024_S1x1024_S1x2048_d1 : Shape.Concatenates [S1x1024, S1x1024] S1x2048 1
  broadcasts_S2048x1_S2048x2048 : S2048x1.Broadcasts S2048x2048
  broadcasts_S1x2048_S2048x2048 : S1x2048.Broadcasts S2048x2048
  natLt_1_32 : 1 < 32
  slices_S512x2048_o0_0_S512x1024 : S512x2048.Slices ![0, 0] S512x1024
  slices_S512x2048_o0_1024_S512x1024 : S512x2048.Slices ![0, 1024] S512x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S4x1024_o0_0_S1x1024 : S4x1024.Slices ![0, 0] S1x1024
  shapeCasts_S1x1024_S1x1024 : S1x1024.ShapeCasts S1x1024
  broadcasts_S1x1024_S512x1024 : S1x1024.Broadcasts S512x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  inb_S512x1024_S512x1024_0_0 : ∀ a, (![0, 0] : Fin 2 → Nat) a + S512x1024.size a ≤ S512x1024.size a
  h_S512x1024 : 0 < S512x1024.numel
  dot_S8192x16_S16x4_S8192x4_1_0_0_1_n_n_wf : DotDims.WF S8192x16 S16x4 S8192x4 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x8192.size a
  hwx0_0 : ∀ i : grid0.Coords, EltTy.bits .bf16 = 32 ∨ (Rect.block (s := S4096x8192) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x8192.size a
  hwx0_1 : ∀ i : grid0.Coords, EltTy.bits .i32 = 32 ∨ (Rect.block (s := S2x8192) S2x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v16) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192 : Shape := ⟨1, ![8192]⟩
abbrev S8192x16 : Shape := ⟨2, ![8192, 16]⟩
abbrev S16x4 : Shape := ⟨2, ![16, 4]⟩
abbrev S_ : Shape := ⟨0, ![]⟩
abbrev S8192x1 : Shape := ⟨2, ![8192, 1]⟩
abbrev S8192x4 : Shape := ⟨2, ![8192, 4]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .i32⟩
  | .hbm, ⟨2, _⟩ => ⟨S8192, .i32⟩
  | .hbm, ⟨3, _⟩ => ⟨S8192x16, .f32⟩
  | .hbm, ⟨4, _⟩ => ⟨S16x4, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x16, .f32⟩
  | .hbm, ⟨18, _⟩ => ⟨S8192x16, .f32⟩
  | .hbm, ⟨19, _⟩ => ⟨S8192x4, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S4096x8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S4096x8192, .f32⟩
  | .hbm, ⟨38, _⟩ => ⟨S8192x1, .f32⟩
  | .hbm, ⟨39, _⟩ => ⟨S8192, .f32⟩
  | .hbm, ⟨40, _⟩ => ⟨S8192x1, .f32⟩
  | .hbm, ⟨41, _⟩ => ⟨S8192, .f32⟩
  | .hbm, ⟨42, _⟩ => ⟨S8192x1, .f32⟩
  | .hbm, ⟨43, _⟩ => ⟨S8192, .f32⟩
  | .hbm, ⟨44, _⟩ => ⟨S8192x1, .f32⟩
  | .hbm, ⟨45, _⟩ => ⟨S8192, .f32⟩
  | .hbm, ⟨46, _⟩ => ⟨S1x8192, .f32⟩
  | .hbm, ⟨47, _⟩ => ⟨S4096x8192, .f32⟩
  | .hbm, ⟨48, _⟩ => ⟨S4096x8192, .f32⟩
  | .hbm, ⟨49, _⟩ => ⟨S1x8192, .f32⟩
  | .hbm, ⟨50, _⟩ => ⟨S4096x8192, .f32⟩
  | .hbm, ⟨51, _⟩ => ⟨S4096x8192, .f32⟩
  | .hbm, ⟨52, _⟩ => ⟨S1x8192, .f32⟩
  | .hbm, ⟨53, _⟩ => ⟨S4096x8192, .f32⟩
  | .hbm, ⟨54, _⟩ => ⟨S4096x8192, .f32⟩
  | .hbm, ⟨55, _⟩ => ⟨S4096x8192, .f32⟩
  | .hbm, ⟨56, _⟩ => ⟨S4096x8192, .f32⟩
  | .hbm, ⟨57, _⟩ => ⟨S1x8192, .f32⟩
  | .hbm, ⟨58, _⟩ => ⟨S4096x8192, .f32⟩
  | .hbm, ⟨59, _⟩ => ⟨S4096x8192, .f32⟩
  | .hbm, ⟨60, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S8192x16_S16x4_S8192x4_1_0_0_1_n_n_wf : DotDims.WF S8192x16 S16x4 S8192x4 [1] [0] [0] [1] [] []
  gather_S4096x8192_S8192x1_S4096x8192_0_1_n_n_1_1_40961_wf : GatherDims.WF S4096x8192 S8192x1 S4096x8192 [0] [1] [] [1] [] 1 ![4096, 1]

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def gather_S4096x8192_S8192x1_S4096x8192_0_1_n_n_1_1_40961 : GatherDims S4096x8192 S8192x1 S4096x8192 where
  offsetDims := [0]
  collapsedSliceDims := [1]
  operandBatchingDims := []
  startIndicesBatchingDims := []
  startIndexMap := [1]
  indexVectorDim := 1
  sliceSizes := ![4096, 1]
  wf := gather_S4096x8192_S8192x1_S4096x8192_0_1_n_n_1_1_40961_wf

class Facts : Prop extends Facts₀ where

variable [Facts]
-- ==== Proof.Spec.lean ====
/-
  The function both programs compute, stated once over the argument arrays.

  A layer of 8192 two-input gates over 8192 input columns. Gate n reads the two input columns
  ia n and ib n of every row r; its output is the mixture of the sixteen relaxed binary gates,
  collapsed into one affine form in (1, a, b, a*b):

      out r n = D n 0 + D n 1 * a + D n 2 * b + D n 3 * (a * b),   a = x r (ia n),  b = x r (ib n),

  where D is the 8192 x 4 table of mixture coefficients (the softmax of the gate logits times the
  16 x 4 table of gate coefficients). The coefficient table is a parameter here: both programs
  compute it by the same host operations, and nothing below opens it.

  A column index is read as a signed word and clamped into [0, 8191]; on indices already in that
  range this is the index itself.
-/
import Idealize.ShloMosaic.PureOps.Ideal
import Idealize.ShloMosaic.Lib.ValueIdx

noncomputable section

namespace Cert.GateMix

open Idealize.ShloMosaic Idealize.ShloMosaic.ValueIdx

/-- The input matrix: 4096 rows, 8192 columns. -/
abbrev SX : Shape := ⟨2, ![4096, 8192]⟩
/-- One column index per gate. -/
abbrev SI : Shape := ⟨1, ![8192]⟩
/-- Four mixture coefficients per gate. -/
abbrev SC : Shape := ⟨2, ![8192, 4]⟩

/-- A 32-bit word read as a column: signed, clamped into [0, 8191]. -/
def col (b : BitVec 32) : Fin 8192 := ⟨min b.toInt.toNat 8191, by omega⟩

/-- A word whose unsigned value is below 8192 is its own column. -/
theorem col_of_lt (b : BitVec 32) (h : b.toNat < 8192) : col b = ⟨b.toNat, h⟩ := by
  refine Fin.ext ?_
  show min b.toInt.toNat 8191 = b.toNat
  have : b.toInt = (b.toNat : Int) := by
    rw [BitVec.toInt_eq_toNat_cond]; split <;> omega
  rw [this, Int.toNat_natCast]; omega

/-- Gate n's output on row r. -/
def mixAt (x : SX.Idx → EReal) (ia ib : SI.Idx → BitVec 32) (D : SC.Idx → EReal) (r : Fin 4096) (n : Fin 8192) : EReal :=
  D (ix2 n 0) + D (ix2 n 1) * x (ix2 r (col (ia (ix1 n)))) + D (ix2 n 2) * x (ix2 r (col (ib (ix1 n))))
    + D (ix2 n 3) * (x (ix2 r (col (ia (ix1 n)))) * x (ix2 r (col (ib (ix1 n)))))

/-- The whole output array. -/
def mix (x : SX.Idx → EReal) (ia ib : SI.Idx → BitVec 32) (D : SC.Idx → EReal) : SX.Idx → EReal :=
  fun i => mixAt x ia ib D (i 0) (i 1)

theorem mix_apply (x : SX.Idx → EReal) (ia ib : SI.Idx → BitVec 32) (D : SC.Idx → EReal) (r : Fin 4096) (n : Fin 8192) :
    mix x ia ib D (ix2 r n) = mixAt x ia ib D r n := rfl

/-! ## The one-hot matrix of one reduction step

The kernel gathers by a product with a 0/1 matrix. At step k of the reduction it compares the
absolute column positions k * 2048 + kk (kk = 0 .. 2047) with the row of 2048 wanted columns: the
1024 first-operand indices of the gate tile followed by its 1024 second-operand indices. -/

/-- The wanted column of lane q: lanes 0 .. 1023 read row 0 of the 2 x 1024 index block, lanes
    1024 .. 2047 its row 1. -/
def catw (v : (⟨2, ![2, 1024]⟩ : Shape).Idx → BitVec 32) (q : Fin 2048) : BitVec 32 :=
  if h : q.val < 1024 then v (ix2 0 ⟨q.val, h⟩) else v (ix2 1 ⟨q.val - 1024, by omega⟩)

/-- The absolute column position k * 2048 + kk, as a 32-bit word. -/
def posw (k : ℕ) (kk : Fin 2048) : BitVec 32 := BitVec.ofNat 32 k * 2048#32 + BitVec.ofNat 32 kk.val

end Cert.GateMix

end
-- ==== Proof.HostPrefix.lean ====
/-
  What the kernel's three input windows hold when the region starts.

  Before the kernel is launched the host has computed: the input matrix narrowed to a 16-bit
  float format (the identity on extended reals), the two index vectors stacked into a 2 x 8192
  array (row 0 the first-operand columns, row 1 the second-operand columns), and the 8192 x 4
  coefficient table transposed to 4 x 8192. Each is read here at one index. The coefficient
  table itself is never opened: it enters only as "the array the host left in its buffer".
-/
import proofs.«410171_j48808008352082_3_alg».proof.Proof.Gen.KernelIdeal.Frame
import proofs.«410171_j48808008352082_3_alg».proof.Proof.Spec
import Idealize.ShloMosaic.Lib.Pipeline.Value
import Idealize.ShloMosaic.Lib.StableHlo.Run
import Idealize.ShloMosaic.Lib.ValueIdx

noncomputable section

namespace Cert.KernelIdeal.Host

open Cert.KernelIdeal Cert.KernelIdeal.Gen Cert.GateMix
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The coefficient table as the host left it: 8192 gates, 4 coefficients each. -/
abbrev coefArr (c : Dev nD) : S8192x4.Idx → Ideal .f32 := V m c main_v11

/-- The narrowed input matrix is the input matrix. -/
theorem V_x (c : Dev nD) :
    (V m c main_v16 : S4096x8192.Idx → Ideal .bf16)
      = truncf (F := Ideal) (s := S4096x8192) (φ := .f32) .bf16 (m ((c : Thread nD τ).loc main_arg0)) bitsLt_bf16_f32 := by
  dsimp only [V, hostOps0]
  after_results

theorem V_x_apply (c : Dev nD) (i : S4096x8192.Idx) :
    (V m c main_v16 : S4096x8192.Idx → Ideal .bf16) i = m ((c : Thread nD τ).loc main_arg0) i := by
  rw [V_x]; rfl

/-- The stacked index array: the two index vectors, each as a 1 x 8192 row, one above the other. -/
theorem V_idx (c : Dev nD) :
    (V m c main_v15 : S2x8192.Idx → BitVec 32)
      = concatenate S2x8192 0
          [⟨S1x8192, broadcastInDim S1x8192 ![1] bcast_S8192_S1x8192_1 (m ((c : Thread nD τ).loc main_arg1))⟩,
           ⟨S1x8192, broadcastInDim S1x8192 ![1] bcast_S8192_S1x8192_1 (m ((c : Thread nD τ).loc main_arg2))⟩]
          concatenates_S1x8192_S1x8192_S2x8192_d0 := by
  dsimp only [V, hostOps0]
  after_results

/-- Row 0 of the stacked index array is the first index vector. -/
theorem V_idx_row0 (c : Dev nD) (n : Fin 8192) :
    (V m c main_v15 : S2x8192.Idx → BitVec 32) (ix2 0 n) = m ((c : Thread nD τ).loc main_arg1) (ix1 n) := by
  rw [V_idx]
  refine (concatenate_pair_apply_left (t := S2x8192) (s₁ := S1x8192) (s₂ := S1x8192) (0 : Fin 2) _ _
    concatenates_S1x8192_S1x8192_S2x8192_d0 (ix2 (0 : Fin 2) n) (rfl : S1x8192.rank = S2x8192.rank)
    (ix2 (0 : Fin 1) n) (fun b => ?_)).trans ?_
  · match b with
    | ⟨0, _⟩ => rfl
    | ⟨1, _⟩ => rfl
  · exact broadcastInDim_apply (s := S8192) (t := S1x8192) ![1] bcast_S8192_S1x8192_1 _ (ix2 (0 : Fin 1) n) (ix1 n) (fun a => by
      obtain rfl : a = 0 := Subsingleton.elim _ _
      rfl)

/-- Row 1 of the stacked index array is the second index vector. -/
theorem V_idx_row1 (c : Dev nD) (n : Fin 8192) :
    (V m c main_v15 : S2x8192.Idx → BitVec 32) (ix2 1 n) = m ((c : Thread nD τ).loc main_arg2) (ix1 n) := by
  rw [V_idx]
  refine (concatenate_pair_apply_right (t := S2x8192) (s₁ := S1x8192) (s₂ := S1x8192) (0 : Fin 2) _ _
    concatenates_S1x8192_S1x8192_S2x8192_d0 (ix2 (1 : Fin 2) n) (rfl : S1x8192.rank = S2x8192.rank)
    (rfl : S1x8192.rank = S2x8192.rank) (ix2 (0 : Fin 1) n) (fun b hb => ?_) ?_).trans ?_
  · match b with
    | ⟨0, _⟩ => exact absurd rfl hb
    | ⟨1, _⟩ => rfl
  · rfl
  · exact broadcastInDim_apply (s := S8192) (t := S1x8192) ![1] bcast_S8192_S1x8192_1 _ (ix2 (0 : Fin 1) n) (ix1 n) (fun a => by
      obtain rfl : a = 0 := Subsingleton.elim _ _
      rfl)

set_option maxHeartbeats 2000000 in
/-- The transposed coefficient array is the transpose of the coefficient table. -/
theorem V_coefT (c : Dev nD) :
    (V m c main_v12 : S4x8192.Idx → Ideal .f32) = transpose S4x8192 [1, 0] (coefArr m c) transposes_S8192x4_S4x8192_1_0 := by
  dsimp only [coefArr, V, hostOps0]
  after_results

/-- Coefficient e of gate n sits at (e, n) of the transposed array. -/
theorem V_coefT_apply (c : Dev nD) (e : Fin 4) (n : Fin 8192) :
    (V m c main_v12 : S4x8192.Idx → Ideal .f32) (ix2 e n) = coefArr m c (ix2 n e) := by
  rw [V_coefT]
  exact transpose_apply (s := S8192x4) (t := S4x8192) [1, 0] _ transposes_S8192x4_S4x8192_1_0 (ix2 e n) (ix2 n e) (fun b => by
    match b with
    | ⟨0, _⟩ => rfl
    | ⟨1, _⟩ => rfl)

end Cert.KernelIdeal.Host

end
-- ==== Proof.Blocks.lean ====
/-
  The blocks the kernel's windows hold at a grid point, as entries of the whole arrays.

  The 256 grid points are numbered with the reduction step fastest: point t is row tile t / 32,
  gate tile (t / 4) % 8 and reduction step t % 4. At point t the input window holds rows
  512 * (t / 32) .. + 511 and columns 2048 * (t % 4) .. + 2047 of the input matrix; the index
  window and the coefficient window hold the 1024 gates of gate tile (t / 4) % 8.
-/
import proofs.«410171_j48808008352082_3_alg».proof.Proof.HostPrefix

noncomputable section

namespace Cert.KernelIdeal.Blocks

open Cert.KernelIdeal Cert.KernelIdeal.Gen Cert.KernelIdeal.Host Cert.GateMix
open Idealize.ShloMosaic Idealize.ShloMosaic.TcCoe Idealize.ShloMosaic.ValueIdx Idealize.SL.Sem

variable (m : (ℓ : Loc nD τ sig) → Buf (Elt Ideal) ℓ)

/-! ## The grid's numbering, decided once over its 256 points -/

theorem step_coord : ∀ t : Fin cfg0.N, ((grid0.coords t) 2).val = t.val % 4 :=
  (by decide +kernel : ∀ t : Fin grid0.N, ((grid0.coords t) 2).val = t.val % 4)

theorem index_x : ∀ t : Fin cfg0.N, win0_0.index t 0 = t.val / 32 ∧ win0_0.index t 1 = t.val % 4 :=
  (by decide +kernel : ∀ t : Fin grid0.N, win0_0.index t 0 = t.val / 32 ∧ win0_0.index t 1 = t.val % 4)

theorem index_idx : ∀ t : Fin cfg0.N, win0_1.index t 0 = 0 ∧ win0_1.index t 1 = t.val / 4 % 8 :=
  (by decide +kernel : ∀ t : Fin grid0.N, win0_1.index t 0 = 0 ∧ win0_1.index t 1 = t.val / 4 % 8)

theorem index_coef : ∀ t : Fin cfg0.N, win0_2.index t 0 = 0 ∧ win0_2.index t 1 = t.val / 4 % 8 :=
  (by decide +kernel : ∀ t : Fin grid0.N, win0_2.index t 0 = 0 ∧ win0_2.index t 1 = t.val / 4 % 8)

theorem index_out : ∀ t : Fin cfg0.N, win0_3.index t 0 = t.val / 32 ∧ win0_3.index t 1 = t.val / 4 % 8 :=
  (by decide +kernel : ∀ t : Fin grid0.N, win0_3.index t 0 = t.val / 32 ∧ win0_3.index t 1 = t.val / 4 % 8)

theorem lt_256 (t : Fin cfg0.N) : t.val < 256 := lt_of_lt_of_eq t.isLt (show cfg0.N = 256 from N_0)

/-! ## The three input blocks at an index -/

/-- The input block at point t: entry (p, kk) is the matrix at row 512 * (t / 32) + p, column 2048 * (t % 4) + kk. -/
theorem iblk_x (c : Dev nD) (t : Fin cfg0.N) (p : Fin 512) (kk : Fin 2048) :
    (iblk m c 0 t : Vec Ideal S512x2048 .bf16) (ix2 p kk)
      = m ((c : Thread nD τ).loc main_arg0)
          (ix2 ⟨512 * (t.val / 32) + p.val, by have := lt_256 t; have := p.isLt; omega⟩
               ⟨2048 * (t.val % 4) + kk.val, by have := kk.isLt; omega⟩) := by
  unfold iblk
  rw [View.read_apply]
  show V m c main_v16 _ = _
  rw [V_x_apply]
  congr 1
  funext a
  apply Fin.ext
  match a with
  | ⟨0, _⟩ => show win0_0.index t 0 * 512 + 1 * p.val = 512 * (t.val / 32) + p.val; rw [(index_x t).1]; omega
  | ⟨1, _⟩ => show win0_0.index t 1 * 2048 + 1 * kk.val = 2048 * (t.val % 4) + kk.val; rw [(index_x t).2]; omega

/-- The index block at point t: row a, lane q is the stacked index array at row a, gate 1024 * ((t / 4) % 8) + q. -/
theorem iblk_idx (c : Dev nD) (t : Fin cfg0.N) (a : Fin 2) (q : Fin 1024) :
    (iblk m c 1 t : Vec Ideal S2x1024 .i32) (ix2 a q)
      = (V m c main_v15 : S2x8192.Idx → BitVec 32) (ix2 a ⟨1024 * (t.val / 4 % 8) + q.val, by have := q.isLt; omega⟩) := by
  unfold iblk
  rw [View.read_apply]
  show V m c main_v15 _ = _
  congr 1
  funext b
  apply Fin.ext
  match b with
  | ⟨0, _⟩ => show win0_1.index t 0 * 2 + 1 * a.val = a.val; rw [(index_idx t).1]; omega
  | ⟨1, _⟩ => show win0_1.index t 1 * 1024 + 1 * q.val = 1024 * (t.val / 4 % 8) + q.val; rw [(index_idx t).2]; omega

/-- The coefficient block at point t: coefficient e, lane q is coefficient e of gate 1024 * ((t / 4) % 8) + q. -/
theorem iblk_coef (c : Dev nD) (t : Fin cfg0.N) (e : Fin 4) (q : Fin 1024) :
    (iblk m c 2 t : Vec Ideal S4x1024 .f32) (ix2 e q)
      = coefArr m c (ix2 ⟨1024 * (t.val / 4 % 8) + q.val, by have := q.isLt; omega⟩ e) := by
  rw [← V_coefT_apply]
  unfold iblk
  rw [View.read_apply]
  show V m c main_v12 _ = _
  congr 1
  funext b
  apply Fin.ext
  match b with
  | ⟨0, _⟩ => show win0_2.index t 0 * 4 + 1 * e.val = e.val; rw [(index_coef t).1]; omega
  | ⟨1, _⟩ => show win0_2.index t 1 * 1024 + 1 * q.val = 1024 * (t.val / 4 % 8) + q.val; rw [(index_coef t).2]; omega

/-- The wanted column of lane q at point t: lanes below 1024 the first-operand column of gate
    1024 * ((t / 4) % 8) + q, the others the second-operand column of gate 1024 * ((t / 4) % 8) + q - 1024. -/
theorem catw_iblk (c : Dev nD) (t : Fin cfg0.N) (q : Fin 2048) :
    catw (iblk m c 1 t : Vec Ideal S2x1024 .i32) q
      = if h : q.val < 1024 then m ((c : Thread nD τ).loc main_arg1) (ix1 ⟨1024 * (t.val / 4 % 8) + q.val, by omega⟩)
        else m ((c : Thread nD τ).loc main_arg2) (ix1 ⟨1024 * (t.val / 4 % 8) + (q.val - 1024), by have := q.isLt; omega⟩) := by
  unfold catw
  split
  · rw [iblk_idx, V_idx_row0]
  · rw [iblk_idx, V_idx_row1]

end Cert.KernelIdeal.Blocks

end
-- ==== Proof.Pieces.lean ====
/-
  What each of the body's three control cases leaves behind, as values.

  The body stores the accumulator once per point (twice at a reduction's first step: the reset,
  then the update read back over it) and, at a reduction's last step, the output block. Each
  store's value is the body's arithmetic applied to what the point found in its buffers:

    first step    accumulator := update(zeros)
    middle steps  accumulator := update(previous accumulator)
    last step     accumulator := update(previous accumulator),  output := combine(that accumulator)
-/
import proofs.«410171_j48808008352082_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A reduction's first step: the accumulator is reset to zeros and updated from them. -/
theorem acc_first (c : Dev nD) (i : grid0.Coords) (arg3 : Memref sig .tc .vmem S512x2048 .bf16) (harg3 : arg3.IsWhole) (arg4 : Memref sig .tc .vmem S2x1024 .i32) (harg4 : arg4.IsWhole) (arg5 : Memref sig .tc .vmem S4x1024 .f32) (harg5 : arg5.IsWhole) (arg6 : Memref sig .tc .vmem S512x1024 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S2x1024 .i32) (x2 : Vec F S4x1024 .f32) :
    sout0_A_0 c i arg3 harg3 arg4 harg4 arg5 harg5 arg6 harg6 arg7 harg7 hc0 hc1 x0 x1 x2 = k0_pay2 i x1 x0 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x2048) hz, View.readCov_unit_zero (S := S512x2048) _ hz]
  simp only [View.readAt_eq_ld, harg3.read_unread, harg4.read_unread, View.ld_unit_zero (S := S512x2048) hz,
    View.ld_unit_zero (S := S2x1024) hz]

/-- A middle step: the accumulator is updated from what the step before left. -/
theorem acc_middle (c : Dev nD) (i : grid0.Coords) (arg3 : Memref sig .tc .vmem S512x2048 .bf16) (harg3 : arg3.IsWhole) (arg4 : Memref sig .tc .vmem S2x1024 .i32) (harg4 : arg4.IsWhole) (arg5 : Memref sig .tc .vmem S4x1024 .f32) (harg5 : arg5.IsWhole) (arg6 : Memref sig .tc .vmem S512x1024 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S2x1024 .i32) (x2 : Vec F S4x1024 .f32) (xs0 : Vec F S512x2048 .f32) :
    sout0_B_0 c i arg3 harg3 arg4 harg4 arg5 harg5 arg6 harg6 arg7 harg7 hc0 hc1 x0 x1 x2 xs0 = k0_pay2 i x1 x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S512x2048) hz,
    View.ld_unit_zero (S := S2x1024) hz]

/-- The last step updates the accumulator in the same way, -/
theorem acc_last (c : Dev nD) (i : grid0.Coords) (arg3 : Memref sig .tc .vmem S512x2048 .bf16) (harg3 : arg3.IsWhole) (arg4 : Memref sig .tc .vmem S2x1024 .i32) (harg4 : arg4.IsWhole) (arg5 : Memref sig .tc .vmem S4x1024 .f32) (harg5 : arg5.IsWhole) (arg6 : Memref sig .tc .vmem S512x1024 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S2x1024 .i32) (x2 : Vec F S4x1024 .f32) (xs0 : Vec F S512x2048 .f32) :
    sout0_C_0 c i arg3 harg3 arg4 harg4 arg5 harg5 arg6 harg6 arg7 harg7 hc0 hc1 x0 x1 x2 xs0 = k0_pay2 i x1 x0 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S512x2048) hz,
    View.ld_unit_zero (S := S2x1024) hz]

/-- and stores the combination of the updated accumulator with the coefficient block as the output block. -/
theorem out_last (c : Dev nD) (i : grid0.Coords) (arg3 : Memref sig .tc .vmem S512x2048 .bf16) (harg3 : arg3.IsWhole) (arg4 : Memref sig .tc .vmem S2x1024 .i32) (harg4 : arg4.IsWhole) (arg5 : Memref sig .tc .vmem S4x1024 .f32) (harg5 : arg5.IsWhole) (arg6 : Memref sig .tc .vmem S512x1024 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S2x1024 .i32) (x2 : Vec F S4x1024 .f32) (xs0 : Vec F S512x2048 .f32) :
    out0_C_3 c i arg3 harg3 arg4 harg4 arg5 harg5 arg6 harg6 arg7 harg7 hc0 hc1 x0 x1 x2 xs0 = k0_pay3 (k0_pay2 i x1 x0 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.readCov_unit_zero (S := S512x2048) _ hz, View.ld_unit_zero (S := S512x2048) hz,
    View.ld_unit_zero (S := S2x1024) hz, View.ld_unit_zero (S := S4x1024) hz]

end Cert.KernelIdeal.Pieces

end
-- ==== Proof.Pay.lean ====
/-
  The kernel body's three stored values, each read at one index, at the ideal instance (a float is an
  extended real and every operation is exact).

  * The first store writes the zero block.
  * The second store adds one reduction step of the gather to the accumulator. The step multiplies the
    512 x 2048 input block by a 2048 x 2048 matrix of zeros and ones whose (kk, q) entry is 1 exactly when
    the absolute column position step * 2048 + kk equals the column word wanted on lane q; the product
    at (p, q) is therefore the sum over kk of the input at (p, kk) times that entry.
  * The third store combines the two gathered halves a (lanes 0 .. 1023) and b (lanes 1024 .. 2047) of
    the accumulator with the four coefficient rows: c0 + ca * a + cb * b + cab * (a * b).
-/
import proofs.«410171_j48808008352082_3_alg».proof.Proof.Gen.KernelIdeal.Skeleton
import proofs.«410171_j48808008352082_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.GateMix Idealize.ShloMosaic Idealize.ShloMosaic.ValueIdx

variable [Cert.KernelIdeal.Facts]

/-! ## Small readings at an index -/

/-- A column [a, 1] laid across b columns reads, at (r, c), the column at r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The widened comparison bit of two words, converted to a float, is 1 where the words are equal and 0
    elsewhere: the bit is 1 or 0, widening keeps its value, and the conversion is exact. -/
theorem hot_word (x y : BitVec 32) :
    (FloatOps.sitofp (F := Ideal) .f32 ((IntOp.cmpi .eq x y).setWidth 32) : EReal) = if x = y then 1 else 0 := by
  by_cases h : x = y
  · rw [if_pos h, IntOp.cmpi_eq.2 h]
    show ((((1#1 : BitVec 1).setWidth 32).toInt : ℝ) : EReal) = 1
    rw [show ((1#1 : BitVec 1).setWidth 32).toInt = 1 from by decide]
    simp
  · rw [if_neg h, eq_zero_of_ne_one (mt IntOp.cmpi_eq.1 h)]
    show ((((0#1 : BitVec 1).setWidth 32).toInt : ℝ) : EReal) = 0
    rw [show ((0#1 : BitVec 1).setWidth 32).toInt = 0 from by decide]
    simp

/-! ## The first store: the zero block -/

theorem pay1_apply (p : Fin 512) (q : Fin 2048) : k0_pay1 (F := Ideal) (ix2 p q) = 0 := by
  show shapeCast S512x2048 (broadcast S512x2048 (Scalar.ofBits .f32 0x00000000#32 : Ideal .f32))
      shapeCasts_S512x2048_S512x2048 (ix2 p q) = 0
  rw [shapeCast_self]
  exact Ideal.ofBits_zero_f32

/-! ## The second store: one reduction step of the gather

The position word of row kk is step * 2048 + kk; the wanted column word of lane q is the index block's
row 0 on lanes 0 .. 1023 and its row 1 on lanes 1024 .. 2047. -/

/-- The position matrix at (kk, q): the step's base plus the row number. -/
theorem pos_apply (i : grid0.Coords) (kk q : Fin 2048) :
    broadcastTo S2048x2048
        (addi (broadcast S2048x1 (Scalar.muli (BitVec.ofNat 32 (i 2).val) 2048#32)) (iota .tc S2048x1 32 [0] iota_S2048x1_d0_w32))
        broadcasts_S2048x1_S2048x2048 (ix2 kk q)
      = posw (i 2).val kk := by
  rw [broadcastTo_a1_ab_apply]
  show IntOp.addi (Scalar.muli (BitVec.ofNat 32 (i 2).val) 2048#32) (iota .tc S2048x1 32 [0] iota_S2048x1_d0_w32 (ix2 kk (0 : Fin 1))) = _
  rw [iota_single_apply]
  rfl

/-- The wanted-column matrix at (kk, q): the two rows of the index block side by side. -/
theorem want_apply (v7 : Vec Ideal S2x1024 .i32) (kk q : Fin 2048) :
    broadcastTo S2048x2048
        (concatenate S1x2048 1
          [⟨S1x1024, extractStridedSlice S1x1024 ![0, 0] (shapeCast S2x1024 v7 shapeCasts_S2x1024_S2x1024) slices_S2x1024_o0_0_S1x1024⟩,
            ⟨S1x1024, extractStridedSlice S1x1024 ![1, 0] (shapeCast S2x1024 v7 shapeCasts_S2x1024_S2x1024) slices_S2x1024_o1_0_S1x1024⟩]
          concatenates_S1x1024_S1x1024_S1x2048_d1)
        broadcasts_S1x2048_S2048x2048 (ix2 kk q)
      = catw v7 q := by
  rw [broadcastTo_1b_ab_apply]
  unfold catw
  split
  · next hq =>
    refine (concatenate_pair_apply_left (t := S1x2048) (s₁ := S1x1024) (s₂ := S1x1024) (1 : Fin 2) _ _ _ (ix2 (0 : Fin 1) q) rfl (ix2 (0 : Fin 1) (⟨q.val, hq⟩ : Fin 1024))
      (fun b => ?_)).trans ?_
    · match b with
      | ⟨0, _⟩ => rfl
      | ⟨1, _⟩ => rfl
    · refine (slice2_axis0_apply 0 _ _ (0 : Fin 1) (⟨q.val, hq⟩ : Fin 1024) (0 : Fin 2) rfl).trans ?_
      exact congrFun (shapeCast_self v7 _) _
  · next hq =>
    refine (concatenate_pair_apply_right (t := S1x2048) (s₁ := S1x1024) (s₂ := S1x1024) (1 : Fin 2) _ _ _ (ix2 (0 : Fin 1) q) rfl rfl
      (ix2 (0 : Fin 1) (⟨q.val - 1024, by omega⟩ : Fin 1024)) (fun b hb => ?_) ?_).trans ?_
    · match b with
      | ⟨0, _⟩ => rfl
      | ⟨1, _⟩ => exact absurd rfl hb
    · show q.val - 1024 + 1024 = q.val
      omega
    · refine (slice2_axis0_apply 1 _ _ (0 : Fin 1) (⟨q.val - 1024, by omega⟩ : Fin 1024) (1 : Fin 2) rfl).trans ?_
      exact congrFun (shapeCast_self v7 _) _

/-! The operand indices of the product: with one contracting axis, the left operand is read at
    (row, contraction position) and the right operand at (contraction position, column). -/

theorem lhs_axis0 (j : S512x2048.Idx) (k : dot_S512x2048_S2048x2048_S512x2048_1_0_0_1_n_n.contr.Idx) :
    (dot_S512x2048_S2048x2048_S512x2048_1_0_0_1_n_n.lhsIdx j k 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

theorem lhs_axis1 (j : S512x2048.Idx) (k : dot_S512x2048_S2048x2048_S512x2048_1_0_0_1_n_n.contr.Idx) :
    (dot_S512x2048_S2048x2048_S512x2048_1_0_0_1_n_n.lhsIdx j k 1).val = (k ⟨0, by decide⟩).val :=
  DotDims.lhsIdx_val_of_single _ (cl := 1) rfl j k

theorem rhs_axis0 (j : S512x2048.Idx) (k : dot_S512x2048_S2048x2048_S512x2048_1_0_0_1_n_n.contr.Idx) :
    (dot_S512x2048_S2048x2048_S512x2048_1_0_0_1_n_n.rhsIdx j k 0).val = (k ⟨0, by decide⟩).val :=
  DotDims.rhsIdx_val_of_single _ (cr := 0) rfl j k

theorem rhs_axis1 (j : S512x2048.Idx) (k : dot_S512x2048_S2048x2048_S512x2048_1_0_0_1_n_n.contr.Idx) :
    (dot_S512x2048_S2048x2048_S512x2048_1_0_0_1_n_n.rhsIdx j k 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

theorem lhs_idx (p : Fin 512) (q kk : Fin 2048) :
    dot_S512x2048_S2048x2048_S512x2048_1_0_0_1_n_n.lhsIdx (ix2 p q)
        ((contrEquiv1 dot_S512x2048_S2048x2048_S512x2048_1_0_0_1_n_n 2048 rfl rfl).symm kk)
      = ix2 p kk := by
  funext a
  match a with
  | ⟨0, _⟩ => exact Fin.ext (lhs_axis0 _ _)
  | ⟨1, _⟩ => exact Fin.ext ((lhs_axis1 _ _).trans (contrEquiv1_symm_val _ _ _ _ kk))

theorem rhs_idx (p : Fin 512) (q kk : Fin 2048) :
    dot_S512x2048_S2048x2048_S512x2048_1_0_0_1_n_n.rhsIdx (ix2 p q)
        ((contrEquiv1 dot_S512x2048_S2048x2048_S512x2048_1_0_0_1_n_n 2048 rfl rfl).symm kk)
      = ix2 kk q := by
  funext a
  match a with
  | ⟨0, _⟩ => exact Fin.ext ((rhs_axis0 _ _).trans (contrEquiv1_symm_val _ _ _ _ kk))
  | ⟨1, _⟩ => exact Fin.ext (rhs_axis1 _ _)

theorem pay2_apply (i : grid0.Coords) (v7 : Vec Ideal S2x1024 .i32) (v18 : Vec Ideal S512x2048 .bf16) (v20 : Vec Ideal S512x2048 .f32)
    (p : Fin 512) (q : Fin 2048) :
    k0_pay2 (F := Ideal) i v7 v18 v20 (ix2 p q)
      = v20 (ix2 p q) + ∑ kk : Fin 2048, v18 (ix2 p kk) * (if posw (i 2).val kk = catw v7 q then (1 : EReal) else 0) := by
  simp only [k0_pay2, shapeCast_self, addf_apply]
  congr 1
  refine (Ideal.matmul_constant_zero_apply (φ₁ := .bf16) (φ₂ := .bf16) dot_S512x2048_S2048x2048_S512x2048_1_0_0_1_n_n none v18 _ (ix2 p q)).trans ?_
  refine (Equiv.sum_comp (contrEquiv1 dot_S512x2048_S2048x2048_S512x2048_1_0_0_1_n_n 2048 rfl rfl).symm _).symm.trans ?_
  refine Finset.sum_congr rfl fun kk _ => ?_
  rw [lhs_idx, rhs_idx]
  congr 1
  refine (hot_word _ _).trans ?_
  rw [pos_apply, want_apply]

/-! ## The third store: the affine combination of the two gathered halves

Lanes 0 .. 1023 of the accumulator hold the first operand, lanes 1024 .. 2047 the second; row r of the
4 x 1024 coefficient block, laid down the 512 rows, multiplies the r-th of (1, a, b, a*b). -/

/-- Row r of the coefficient block laid down the 512 rows reads, at (p, q), the block at (r, q). -/
theorem row_apply (v32 : Vec Ideal S4x1024 .f32) (r : ℕ) (hr : r < 4) (h : S4x1024.Slices ![r, 0] S1x1024) (p : Fin 512) (q : Fin 1024) :
    broadcastTo S512x1024 (extractStridedSlice S1x1024 ![r, 0] v32 h) broadcasts_S1x1024_S512x1024 (ix2 p q)
      = v32 (ix2 (⟨r, hr⟩ : Fin 4) q) := by
  rw [broadcastTo_1b_ab_apply]
  exact slice2_axis0_apply r _ _ (0 : Fin 1) q (⟨r, hr⟩ : Fin 4) rfl

/-- The left half of the accumulator at (p, q). -/
theorem colL_apply (v29 : Vec Ideal S512x2048 .f32) (p : Fin 512) (q : Fin 1024) :
    extractStridedSlice S512x1024 ![0, 0] v29 slices_S512x2048_o0_0_S512x1024 (ix2 p q) = v29 (ix2 p ⟨q.val, by omega⟩) :=
  slice2_axis1_apply 0 _ _ p q ⟨q.val, by omega⟩ (Nat.zero_add _).symm

/-- The right half of the accumulator at (p, q). -/
theorem colR_apply (v29 : Vec Ideal S512x2048 .f32) (p : Fin 512) (q : Fin 1024) :
    extractStridedSlice S512x1024 ![0, 1024] v29 slices_S512x2048_o0_1024_S512x1024 (ix2 p q) = v29 (ix2 p ⟨q.val + 1024, by omega⟩) :=
  slice2_axis1_apply 1024 _ _ p q ⟨q.val + 1024, by omega⟩ (Nat.add_comm _ _)

theorem pay3_apply (v29 : Vec Ideal S512x2048 .f32) (v32 : Vec Ideal S4x1024 .f32) (p : Fin 512) (q : Fin 1024) :
    k0_pay3 (F := Ideal) v29 v32 (ix2 p q)
      = v32 (ix2 0 q) + v32 (ix2 1 q) * v29 (ix2 p ⟨q.val, by omega⟩) + v32 (ix2 2 q) * v29 (ix2 p ⟨q.val + 1024, by omega⟩)
        + v32 (ix2 3 q) * (v29 (ix2 p ⟨q.val, by omega⟩) * v29 (ix2 p ⟨q.val + 1024, by omega⟩)) := by
  simp only [k0_pay3, shapeCast_self, addf_apply, mulf_apply]
  rw [row_apply v32 0 (by omega), row_apply v32 1 (by omega), row_apply v32 2 (by omega), row_apply v32 3 (by omega),
    colL_apply, colR_apply]
  rfl

end Cert.KernelIdeal.Pay

end
-- ==== Proof.OneHot.lean ====
/-
  Gathering a column by a product with a 0/1 matrix, one block of 2048 columns at a time.

  A row X of 8192 entries is multiplied, block by block, with the matrix whose entry at
  (position, lane) is 1 when the position is the lane's wanted column and 0 otherwise. A product
  with 0 is 0 and a product with 1 is the entry itself, on every extended real, so block k
  contributes the wanted entry exactly when the wanted column lies among its 2048 positions, and
  nothing otherwise. Summing the four blocks in order, the accumulator holds the wanted entry from
  the block that contains it onwards: after the last block it is X at the wanted column.
-/
import Idealize.ShloMosaic.PureOps.Ideal
import proofs.«410171_j48808008352082_3_alg».proof.Proof.Spec

noncomputable section

namespace Cert.GateMix

open Idealize.ShloMosaic Idealize.ShloMosaic.ValueIdx

/-- A position word k * 2048 + kk (k < 4, kk < 2048) equals a word below 8192 exactly when the numbers agree:
    nothing wraps in 32 bits. -/
theorem posw_eq_iff (k : ℕ) (hk : k < 4) (kk : Fin 2048) (b : BitVec 32) (hb : b.toNat < 8192) :
    posw k kk = b ↔ 2048 * k + kk.val = b.toNat := by
  have hkk := kk.isLt
  unfold posw
  constructor
  · intro h
    have h' := congrArg BitVec.toNat h
    simp only [BitVec.toNat_add, BitVec.toNat_mul, BitVec.toNat_ofNat, Nat.reducePow] at h'
    omega
  · intro h
    apply BitVec.eq_of_toNat_eq
    simp only [BitVec.toNat_add, BitVec.toNat_mul, BitVec.toNat_ofNat, Nat.reducePow]
    omega

/-- One block's product at one lane: the entry at the wanted column if block k holds it, else 0. -/
theorem sum_row_onehot (k : ℕ) (hk : k < 4) (X : Fin 8192 → EReal) (b : BitVec 32) (hb : b.toNat < 8192) :
    ∑ kk : Fin 2048, X ⟨2048 * k + kk.val, by have := kk.isLt; omega⟩ * (if posw k kk = b then (1 : EReal) else 0)
      = if 2048 * k ≤ b.toNat ∧ b.toNat < 2048 * (k + 1) then X (col b) else 0 := by
  rw [col_of_lt b hb]
  split
  · rename_i h
    rw [Finset.sum_eq_single (⟨b.toNat - 2048 * k, by omega⟩ : Fin 2048)]
    · rw [if_pos ((posw_eq_iff k hk _ b hb).mpr (by show 2048 * k + (b.toNat - 2048 * k) = b.toNat; omega)), mul_one]
      congr 1
      exact Fin.ext (by show 2048 * k + (b.toNat - 2048 * k) = b.toNat; omega)
    · intro kk _ hne
      rw [if_neg, mul_zero]
      intro he
      exact hne (Fin.ext (by have := (posw_eq_iff k hk kk b hb).mp he; show kk.val = b.toNat - 2048 * k; omega))
    · intro h'; exact absurd (Finset.mem_univ _) h'
  · rename_i h
    refine Finset.sum_eq_zero fun kk _ => ?_
    rw [if_neg, mul_zero]
    intro he
    have := (posw_eq_iff k hk kk b hb).mp he
    have := kk.isLt
    omega

/-- What the accumulator holds at a lane after blocks 0 .. k: the wanted entry once a block has held its column. -/
def part (X : Fin 8192 → EReal) (b : BitVec 32) (k : ℕ) : EReal :=
  if b.toNat < 2048 * (k + 1) then X (col b) else 0

/-- Block 0 added to the zero the accumulator is reset to. -/
theorem part_zero (X : Fin 8192 → EReal) (b : BitVec 32) :
    (0 : EReal) + (if 2048 * 0 ≤ b.toNat ∧ b.toNat < 2048 * (0 + 1) then X (col b) else 0) = part X b 0 := by
  unfold part
  rw [zero_add]
  by_cases h : b.toNat < 2048 * (0 + 1)
  · rw [if_pos ⟨by omega, h⟩, if_pos h]
  · rw [if_neg (fun h' => h h'.2), if_neg h]

/-- Block k + 1 added to what blocks 0 .. k left. -/
theorem part_succ (X : Fin 8192 → EReal) (b : BitVec 32) (k : ℕ) :
    part X b k + (if 2048 * (k + 1) ≤ b.toNat ∧ b.toNat < 2048 * (k + 1 + 1) then X (col b) else 0) = part X b (k + 1) := by
  unfold part
  by_cases h1 : b.toNat < 2048 * (k + 1)
  · rw [if_pos h1, if_neg (by omega), if_pos (by omega), add_zero]
  · rw [if_neg h1, zero_add]
    by_cases h2 : b.toNat < 2048 * (k + 1 + 1)
    · rw [if_pos ⟨by omega, h2⟩, if_pos h2]
    · rw [if_neg (fun h' => h2 h'.2), if_neg h2]

/-- After the fourth block every column below 8192 has been passed. -/
theorem part_three (X : Fin 8192 → EReal) (b : BitVec 32) (hb : b.toNat < 8192) : part X b 3 = X (col b) := by
  unfold part
  rw [if_pos (by omega)]

end Cert.GateMix

end
-- ==== Proof.KValue.lean ====
/-
  The kernel's result array, as one function of its arguments.

  Fix a row tile and a gate tile; the four grid points of that pair run the reduction steps
  k = 0, 1, 2, 3 in order. After step k the accumulator holds, at row p and lane q, the entry of
  matrix row 512 * (row tile) + p at lane q's wanted column if that column is below
  2048 * (k + 1), and 0 otherwise (the product with the one-hot block adds the entry exactly at
  the step whose 2048 positions contain the column). With every wanted column in [0, 8192) the
  accumulator after step 3 is the gathered entry itself: lanes 0 .. 1023 hold a = x[row, ia gate]
  and lanes 1024 .. 2047 hold b = x[row, ib gate]. The last step stores
  c0 + ca * a + cb * b + cab * (a * b) with the gate's four coefficients, and the 64 output blocks
  written back at the last steps tile the 4096 x 8192 result.
-/
import proofs.«410171_j48808008352082_3_alg».proof.Proof.Gen.KernelIdeal.Value
import proofs.«410171_j48808008352082_3_alg».proof.Proof.Blocks
import proofs.«410171_j48808008352082_3_alg».proof.Proof.Pieces
import proofs.«410171_j48808008352082_3_alg».proof.Proof.Pay
import proofs.«410171_j48808008352082_3_alg».proof.Proof.OneHot

noncomputable section

namespace Cert.KernelIdeal.KValue

open Cert.KernelIdeal Cert.KernelIdeal.Gen Cert.KernelIdeal.Host Cert.KernelIdeal.Blocks Cert.GateMix
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The input matrix and the two index vectors, as launched. -/
abbrev xA (c : Dev nD) : SX.Idx → EReal := m ((c : Thread nD τ).loc main_arg0)
abbrev iaA (c : Dev nD) : SI.Idx → BitVec 32 := m ((c : Thread nD τ).loc main_arg1)
abbrev ibA (c : Dev nD) : SI.Idx → BitVec 32 := m ((c : Thread nD τ).loc main_arg2)

/-- Every index word, read unsigned, is a column of the matrix. -/
def InRange (c : Dev nD) : Prop :=
  (∀ n : SI.Idx, (iaA m c n).toNat < 8192) ∧ (∀ n : SI.Idx, (ibA m c n).toNat < 8192)

/-- Row r of the matrix (r is always below 4096 where this is used). -/
def rowAt (c : Dev nD) (r : ℕ) : Fin 8192 → EReal :=
  fun j => xA m c (ix2 ⟨r % 4096, Nat.mod_lt _ (by decide)⟩ j)

theorem rowAt_eq (c : Dev nD) (r : ℕ) (hr : r < 4096) (j : Fin 8192) : rowAt m c r j = xA m c (ix2 ⟨r, hr⟩ j) := by
  unfold rowAt
  exact congrArg (fun a => xA m c (ix2 a j)) (Fin.ext (Nat.mod_eq_of_lt hr))

/-- The wanted column word of lane q in gate tile g % 8: a first-operand index for lanes below 1024,
    a second-operand index for the others. -/
def wantAt (c : Dev nD) (g : ℕ) (q : Fin 2048) : BitVec 32 :=
  if h : q.val < 1024 then iaA m c (ix1 ⟨1024 * (g % 8) + q.val, by omega⟩)
  else ibA m c (ix1 ⟨1024 * (g % 8) + (q.val - 1024), by have := q.isLt; omega⟩)

theorem wantAt_lt (c : Dev nD) (hr : InRange m c) (g : ℕ) (q : Fin 2048) : (wantAt m c g q).toNat < 8192 := by
  unfold wantAt
  split
  · exact hr.1 _
  · exact hr.2 _

theorem want_lo (c : Dev nD) (g : ℕ) (q : Fin 1024) :
    wantAt m c g ⟨q.val, by have := q.isLt; omega⟩ = iaA m c (ix1 ⟨1024 * (g % 8) + q.val, by have := q.isLt; omega⟩) := by
  unfold wantAt
  rw [dif_pos (show q.val < 1024 from q.isLt)]

theorem want_hi (c : Dev nD) (g : ℕ) (q : Fin 1024) :
    wantAt m c g ⟨q.val + 1024, by have := q.isLt; omega⟩ = ibA m c (ix1 ⟨1024 * (g % 8) + q.val, by have := q.isLt; omega⟩) := by
  unfold wantAt
  rw [dif_neg (show ¬ q.val + 1024 < 1024 by omega)]
  exact congrArg (fun a => ibA m c (ix1 a)) (Fin.ext (by show 1024 * (g % 8) + (q.val + 1024 - 1024) = 1024 * (g % 8) + q.val; omega))

/-- The concatenated index row the body builds at point t is the gate tile's wanted columns. -/
theorem catw_eq (c : Dev nD) (t : Fin cfg0.N) (q : Fin 2048) :
    catw (iblk m c 1 t : Vec Ideal S2x1024 .i32) q = wantAt m c (t.val / 4) q := by
  rw [catw_iblk]
  rfl

/-- An entry of the input block at point t is an entry of a matrix row. -/
theorem iblk_x_row (c : Dev nD) (t : Fin cfg0.N) (p : Fin 512) (kk : Fin 2048) :
    (iblk m c 0 t : Vec Ideal S512x2048 .bf16) (ix2 p kk)
      = rowAt m c (512 * (t.val / 32) + p.val) ⟨2048 * (t.val % 4) + kk.val, by have := kk.isLt; omega⟩ := by
  rw [iblk_x, rowAt_eq m c _ (by have := lt_256 t; have := p.isLt; omega)]

/-- One reduction step at point t: the accumulator gains, at lane q, the row's entry at the wanted column
    when that column is among the step's 2048 positions. -/
theorem step_value (c : Dev nD) (hr : InRange m c) (t : Fin cfg0.N) (acc : Vec Ideal S512x2048 .f32) (p : Fin 512) (q : Fin 2048) :
    k0_pay2 (F := Ideal) (grid0.coords t) (iblk m c 1 t) (iblk m c 0 t) acc (ix2 p q)
      = acc (ix2 p q)
        + (if 2048 * (t.val % 4) ≤ (wantAt m c (t.val / 4) q).toNat ∧ (wantAt m c (t.val / 4) q).toNat < 2048 * (t.val % 4 + 1)
            then rowAt m c (512 * (t.val / 32) + p.val) (col (wantAt m c (t.val / 4) q)) else 0) := by
  rw [Pay.pay2_apply, step_coord, catw_eq]
  congr 1
  refine (Finset.sum_congr rfl fun kk _ => ?_).trans
    (sum_row_onehot (t.val % 4) (Nat.mod_lt _ (by decide)) (rowAt m c (512 * (t.val / 32) + p.val))
      (wantAt m c (t.val / 4) q) (wantAt_lt m c hr _ _))
  rw [iblk_x_row]

/-- THE ACCUMULATOR after point n, in closed form: by induction on the point. -/
theorem acc_eq (c : Dev nD) (hr : InRange m c) : ∀ (n : ℕ) (h : n < cfg0.N) (p : Fin 512) (q : Fin 2048),
    (outsAt0 m c n h).2 (ix2 p q) = part (rowAt m c (512 * (n / 32) + p.val)) (wantAt m c (n / 4) q) (n % 4)
  | 0, h, p, q => by
    rw [outsAt0_A m c ⟨0, h⟩ rfl (by dsimp only; omega)]
    dsimp only
    rw [Pieces.acc_first, step_value m c hr ⟨0, h⟩, Pay.pay1_apply]
    exact part_zero _ _
  | n + 1, h, p, q => by
    have hN : n + 1 < 256 := lt_of_lt_of_eq h (show cfg0.N = 256 from N_0)
    by_cases h0 : (n + 1) % 4 = 0
    · have h1 : ¬(n + 1) % 4 = 3 := by omega
      rw [outsAt0_A m c ⟨n + 1, h⟩ h0 h1]
      dsimp only
      rw [Pieces.acc_first, step_value m c hr ⟨n + 1, h⟩, Pay.pay1_apply]
      dsimp only
      rw [h0]
      exact part_zero _ _
    · have e1 : (n + 1) / 32 = n / 32 := by omega
      have e2 : (n + 1) / 4 = n / 4 := by omega
      have e3 : (n + 1) % 4 = n % 4 + 1 := by omega
      by_cases h1 : (n + 1) % 4 = 3
      · rw [outsAt0_C m c ⟨n + 1, h⟩ h0 h1]
        dsimp only
        rw [Pieces.acc_last, step_value m c hr ⟨n + 1, h⟩]
        dsimp only
        show (outsAt0 m c n (Nat.lt_of_succ_lt h)).2 (ix2 p q) + _ = _
        rw [acc_eq c hr n (Nat.lt_of_succ_lt h) p q, e1, e2, e3]
        exact part_succ _ _ _
      · rw [outsAt0_B m c ⟨n + 1, h⟩ h0 h1]
        dsimp only
        rw [Pieces.acc_middle, step_value m c hr ⟨n + 1, h⟩]
        dsimp only
        show (outsAt0 m c n (Nat.lt_of_succ_lt h)).2 (ix2 p q) + _ = _
        rw [acc_eq c hr n (Nat.lt_of_succ_lt h) p q, e1, e2, e3]
        exact part_succ _ _ _

/-- After a reduction's last step the accumulator holds the gathered entries. -/
theorem acc_full (c : Dev nD) (hr : InRange m c) (n : ℕ) (h : n < cfg0.N) (h3 : n % 4 = 3) (p : Fin 512) (q : Fin 2048) :
    (outsAt0 m c n h).2 (ix2 p q) = rowAt m c (512 * (n / 32) + p.val) (col (wantAt m c (n / 4) q)) := by
  rw [acc_eq m c hr n h p q, h3]
  exact part_three _ _ (wantAt_lt m c hr _ _)

/-- The output block a last step stores: the gate mixture at the block's rows and gates. -/
theorem out_value (c : Dev nD) (hr : InRange m c) (t : Fin cfg0.N) (h3 : t.val % 4 = 3) (p : Fin 512) (q : Fin 1024) :
    k0_pay3 (F := Ideal) (outsAt0 m c t.val t.isLt).2 (iblk m c 2 t) (ix2 p q)
      = mixAt (xA m c) (iaA m c) (ibA m c) (coefArr m c)
          ⟨512 * (t.val / 32) + p.val, by have := lt_256 t; have := p.isLt; omega⟩
          ⟨1024 * (t.val / 4 % 8) + q.val, by have := q.isLt; omega⟩ := by
  have hrow : 512 * (t.val / 32) + p.val < 4096 := by have := lt_256 t; have := p.isLt; omega
  rw [Pay.pay3_apply, acc_full m c hr t.val t.isLt h3 p ⟨q.val, by have := q.isLt; omega⟩,
    acc_full m c hr t.val t.isLt h3 p ⟨q.val + 1024, by have := q.isLt; omega⟩,
    want_lo, want_hi, iblk_coef, iblk_coef, iblk_coef, iblk_coef, rowAt_eq m c _ hrow, rowAt_eq m c _ hrow]
  rfl

/-- The result array. -/
abbrev result (c : Dev nD) : Buf (Elt Ideal) ((c : Thread nD τ).loc main_v17) :=
  mix (xA m c) (iaA m c) (ibA m c) (coefArr m c)

/-- WHAT A LAST STEP WRITES BACK is its block of the result array. -/
theorem flushed_eq (c : Dev nD) (hr : InRange m c) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  rw [Value.flushed3_C m c t h0 h1, Pieces.out_last]
  have e : k0_pay2 (F := Ideal) (grid0.coords t) (iblk m c 1 t) (iblk m c 0 t)
      (outsAt0 m c (t.val - 1) (Nat.lt_of_le_of_lt (Nat.sub_le _ _) t.isLt)).2 = (outsAt0 m c t.val t.isLt).2 := by
    rw [outsAt0_C m c t h0 h1]
    dsimp only
    rw [Pieces.acc_last]
  rw [e]
  funext j
  show k0_pay3 (F := Ideal) (outsAt0 m c t.val t.isLt).2 (iblk m c 2 t) j = result m c (((cfg0.win 3).blk t).view.emb j)
  refine (congrArg (k0_pay3 (F := Ideal) (outsAt0 m c t.val t.isLt).2 (iblk m c 2 t)) (@eq_ix2 512 1024 j)).trans ?_
  refine (out_value m c hr t h1 (j 0) (j 1)).trans ?_
  show mixAt _ _ _ _ _ _ = mixAt _ _ _ _ ((((cfg0.win 3).blk t).view.emb j) 0) ((((cfg0.win 3).blk t).view.emb j) 1)
  congr 1 <;> apply Fin.ext
  · show 512 * (t.val / 32) + (j 0).val = win0_3.index t 0 * 512 + 1 * (j 0).val
    rw [(index_out t).1]; omega
  · show 1024 * (t.val / 4 % 8) + (j 1).val = win0_3.index t 1 * 1024 + 1 * (j 1).val
    rw [(index_out t).2]; omega

/-- An index of the result is in point t's block iff each coordinate is in the block's range on its axis. -/
theorem mem_blk_out (t : Fin cfg0.N) (i : S4096x8192.Idx) :
    i ∈ ((cfg0.win 3).blk t).view.set
      ↔ ∀ a : Fin 2, win0_3.index t a * S512x1024.size a ≤ (i a).val ∧ (i a).val < win0_3.index t a * S512x1024.size a + S512x1024.size a := by
  show i ∈ ((View.whole main_v17).slice (win0_3.rect t)).set ↔ _
  rw [View.set_slice_whole, Rect.mem_set_unit]
  exact Iff.rfl

/-- The 64 blocks written back tile the result: row i0 and gate i1 lie in the block of row tile i0 / 512 and
    gate tile i1 / 1024, written back at that pair's last step. -/
theorem cover (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 256 := N_0
  let t : Fin cfg0.N := ⟨32 * ((i 0).val / 512) + 4 * ((i 1).val / 1024) + 3, by omega⟩
  have ht : t.val = 32 * ((i 0).val / 512) + 4 * ((i 1).val / 1024) + 3 := rfl
  refine ⟨t, (flush0_3 t).mpr (by rw [ht]; omega), ?_⟩
  rw [mem_blk_out]
  intro a
  match a with
  | ⟨0, _⟩ =>
    show win0_3.index t 0 * 512 ≤ (i 0).val ∧ (i 0).val < win0_3.index t 0 * 512 + 512
    rw [(index_out t).1, ht]; omega
  | ⟨1, _⟩ =>
    show win0_3.index t 1 * 1024 ≤ (i 1).val ∧ (i 1).val < win0_3.index t 1 * 1024 + 1024
    rw [(index_out t).2, ht]; omega

/-- So the result array ends holding the gate mixture everywhere. -/
theorem final (c : Dev nD) (hr : InRange m c) : (dats m 0 c).arrAt 3 cfg0.N = result m c :=
  (dats m 0 c).arrAt_eq_of_cover 3 (result m c) (fun t hf => flushed_eq m c hr t hf) cover

/-- The run, read: the result array at the gate mixture of the arguments, the arguments unchanged. -/
theorem run (hr : ∀ c : Dev nD, InRange m c) :
    θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Value.run_blocks m ρ)

end Cert.KernelIdeal.KValue

end
-- ==== Proof.RefRun.lean ====
/-
  The reference program's run, read back as one function of its four arguments.

  The program is a straight line of 57 host operations. The first sixteen compute, from the gate logits w,
  the 8192 x 4 table of mixture coefficients: a softmax along the sixteen gates (the row maximum subtracted,
  the exponential, the row sum, the quotient), then the product with the literal 16 x 4 table of gate
  coefficients. The rest wraps each column index (a negative index has 8192 added), gathers the two wanted
  columns of every row of x, and combines them with the four coefficient columns:

      out = ((c0 + c1 * a) + c2 * b) + c3 * (a * b).

  `coef` names the coefficient table and `result` the output, as terms over the arguments; `run` says that
  every execution of the program terminates with its result buffer at `result` of the arguments' launch
  contents and the arguments unchanged.
-/
import proofs.«410171_j48808008352082_3_alg».proof.ReferenceIdeal
import proofs.«410171_j48808008352082_3_alg».proof.Proof.Gen.ReferenceIdeal
import Idealize.ShloMosaic.Lib.StableHlo.Run
import Idealize.ShloMosaic.PureOps.Ideal

noncomputable section

namespace Cert.ReferenceIdeal.HandRun

open Cert.ReferenceIdeal Idealize.ShloMosaic Idealize.ShloMosaic.TcCoe Idealize.SL.Sem Idealize.ShloMosaic.StableHlo

variable [Cert.ReferenceIdeal.Facts]
open Facts₀ Facts

/-! ## The value -/

/-- The exponential of the logits shifted by their row maximum: the softmax's numerator. -/
def expShift (w : FVec Ideal S8192x16 .f32) : FVec Ideal S8192x16 .f32 :=
  Host.exp (subf w
    (broadcastInDim S8192x16 ![0, 1] bcast_S8192x1_S8192x16_0_1
      (broadcastInDim S8192x1 ![0] bcast_S8192_S8192x1_0
        (maximumf (broadcastInDim S8192 ![] bcast_S_S8192 (constant (F := Ideal) S_ .f32 0xFF800000#32))
          (Host.reduce (FloatOps.maximumf (F := Ideal) (φ := .f32)) w (constant (F := Ideal) S_ .f32 0xFF800000#32)
            reducesTo_S8192x16_S8192_d1 h_S_)))))

/-- The mixture coefficients: the softmax of the logits along the sixteen gates, times the literal table of
    gate coefficients. -/
def coef (w : FVec Ideal S8192x16 .f32) : FVec Ideal S8192x4 .f32 :=
  Host.dotGeneral dot_S8192x16_S16x4_S8192x4_1_0_0_1_n_n none
    (Host.divf (expShift w)
      (broadcastInDim S8192x16 ![0, 1] bcast_S8192x1_S8192x16_0_1
        (broadcastInDim S8192x1 ![0] bcast_S8192_S8192x1_0
          (Host.reduceAdd (expShift w) (constant (F := Ideal) S_ .f32 0x00000000#32) reducesTo_S8192x16_S8192_d1 h_S_))))
    (fun i => FloatOps.ofBits (F := Ideal) .f32 (lit0 (S16x4.rowMajor i)))

/-- A column index wrapped: a negative one has 8192 added. -/
def wrapIdx (i : IVec S8192 32) : IVec S8192 32 :=
  select (cmpi .slt i (broadcastInDim S8192 ![] bcast_S_S8192 (constantI S_ 32 0#32)))
    (addi i (broadcastInDim S8192 ![] bcast_S_S8192 (constantI S_ 32 8192#32))) i

/-- The gathered columns: at row r and gate n, x at row r and the column the wrapped index of gate n names. -/
def cols (x : FVec Ideal S4096x8192 .f32) (i : IVec S8192 32) : FVec Ideal S4096x8192 .f32 :=
  Host.gather gather_S4096x8192_S8192x1_S4096x8192_0_1_n_n_1_1_40961 x
    (broadcastInDim S8192x1 ![0] bcast_S8192_S8192x1_0 (wrapIdx i))

/-- Column k of the coefficient table, repeated down the 4096 rows. -/
def coefCol (D : FVec Ideal S8192x4 .f32) (k : ℕ) (h : S8192x4.Slices ![0, k] S8192x1) : FVec Ideal S4096x8192 .f32 :=
  broadcastInDim S4096x8192 ![0, 1] bcast_S1x8192_S4096x8192_0_1
    (broadcastInDim S1x8192 ![1] bcast_S8192_S1x8192_1
      (shapeCast S8192 (extractStridedSlice S8192x1 ![0, k] D h) shapeCasts_S8192x1_S8192))

/-- The program's result as a term over its four arguments, the coefficient table standing as `coef w`. -/
def result (x : FVec Ideal S4096x8192 .f32) (ia ib : IVec S8192 32) (w : FVec Ideal S8192x16 .f32) :
    FVec Ideal S4096x8192 .f32 :=
  addf
    (addf
      (addf (coefCol (coef w) 0 slices_S8192x4_S8192x1_0_0)
        (mulf (coefCol (coef w) 1 slices_S8192x4_S8192x1_0_1) (cols x ia)))
      (mulf (coefCol (coef w) 2 slices_S8192x4_S8192x1_0_2) (cols x ib)))
    (mulf (coefCol (coef w) 3 slices_S8192x4_S8192x1_0_3) (mulf (cols x ia) (cols x ib)))

/-! ## The run -/

variable {F : FTy → Type} [FloatOps F]

/-- The program's 57 operations, in order. -/
abbrev ops : List (HloOp τ sig (Elt F)) :=
  [ nullary main_cst (fun i => FloatOps.ofBits .f32 (lit0 (S16x4.rowMajor i))),
    nullary main_cst_0 (constant S_ .f32 0xFF800000#32),
    binary main_arg3 main_cst_0 main_v0 ((fun x v => Host.reduce FloatOps.maximumf x v reducesTo_S8192x16_S8192_d1 h_S_) : (⟨S8192x16, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v1 (broadcastInDim S8192 ![] bcast_S_S8192 : (⟨S_, .f32⟩ : BufTy).Contents (Elt F) → (⟨S8192, .f32⟩ : BufTy).Contents (Elt F)),
    binary main_v1 main_v0 main_v2 (maximumf : (⟨S8192, .f32⟩ : BufTy).Contents (Elt F) → (⟨S8192, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    unary main_v3 main_v4 (broadcastInDim S8192x16 ![0, 1] bcast_S8192x1_S8192x16_0_1 : (⟨S8192x1, .f32⟩ : BufTy).Contents (Elt F) → (⟨S8192x16, .f32⟩ : BufTy).Contents (Elt F)),
    binary main_arg3 main_v4 main_v5 (subf : (⟨S8192x16, .f32⟩ : BufTy).Contents (Elt F) → (⟨S8192x16, .f32⟩ : BufTy).Contents (Elt F) → (⟨S8192x16, .f32⟩ : BufTy).Contents (Elt F)),
    unary main_v5 main_v6 (Host.exp : (⟨S8192x16, .f32⟩ : BufTy).Contents (Elt F) → (⟨S8192x16, .f32⟩ : BufTy).Contents (Elt F)),
    nullary main_cst_2 (constant S_ .f32 0x00000000#32),
    binary main_v6 main_cst_2 main_v7 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    unary main_v7 main_v8 (broadcastInDim S8192x1 ![0] bcast_S8192_S8192x1_0 : (⟨S8192, .f32⟩ : BufTy).Contents (Elt F) → (⟨S8192x1, .f32⟩ : BufTy).Contents (Elt F)),
    unary main_v8 main_v9 (broadcastInDim S8192x16 ![0, 1] bcast_S8192x1_S8192x16_0_1 : (⟨S8192x1, .f32⟩ : BufTy).Contents (Elt F) → (⟨S8192x16, .f32⟩ : BufTy).Contents (Elt F)),
    binary main_v6 main_v9 main_v10 (Host.divf : (⟨S8192x16, .f32⟩ : BufTy).Contents (Elt F) → (⟨S8192x16, .f32⟩ : BufTy).Contents (Elt F) → (⟨S8192x16, .f32⟩ : BufTy).Contents (Elt F)),
    binary main_v10 main_cst main_v11 ((fun l r => Host.dotGeneral dot_S8192x16_S16x4_S8192x4_1_0_0_1_n_n none l r) : (⟨S8192x16, .f32⟩ : BufTy).Contents (Elt F) → (⟨S16x4, .f32⟩ : BufTy).Contents (Elt F) → (⟨S8192x4, .f32⟩ : BufTy).Contents (Elt F)),
    nullary main_c (constantI S_ 32 0#32),
    unary main_c main_v12 (broadcastInDim S8192 ![] bcast_S_S8192 : (⟨S_, .i32⟩ : BufTy).Contents (Elt F) → (⟨S8192, .i32⟩ : BufTy).Contents (Elt F)),
    binary main_arg1 main_v12 main_v13 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v14 (broadcastInDim S8192 ![] bcast_S_S8192 : (⟨S_, .i32⟩ : BufTy).Contents (Elt F) → (⟨S8192, .i32⟩ : BufTy).Contents (Elt F)),
    binary main_arg1 main_v14 main_v15 (addi : (⟨S8192, .i32⟩ : BufTy).Contents (Elt F) → (⟨S8192, .i32⟩ : BufTy).Contents (Elt F) → (⟨S8192, .i32⟩ : BufTy).Contents (Elt F)),
    ternary main_v13 main_v15 main_arg1 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v16 main_v17 (broadcastInDim S8192x1 ![0] bcast_S8192_S8192x1_0 : (⟨S8192, .i32⟩ : BufTy).Contents (Elt F) → (⟨S8192x1, .i32⟩ : BufTy).Contents (Elt F)),
    binary main_arg0 main_v17 main_v18 ((fun x i => Host.gather gather_S4096x8192_S8192x1_S4096x8192_0_1_n_n_1_1_40961 x i) : (⟨S4096x8192, .f32⟩ : BufTy).Contents (Elt F) → (⟨S8192x1, .i32⟩ : BufTy).Contents (Elt F) → (⟨S4096x8192, .f32⟩ : BufTy).Contents (Elt F)),
    nullary main_c_4 (constantI S_ 32 0#32),
    unary main_c_4 main_v19 (broadcastInDim S8192 ![] bcast_S_S8192 : (⟨S_, .i32⟩ : BufTy).Contents (Elt F) → (⟨S8192, .i32⟩ : BufTy).Contents (Elt F)),
    binary main_arg2 main_v19 main_v20 (cmpi .slt : (⟨S8192, .i32⟩ : BufTy).Contents (Elt F) → (⟨S8192, .i32⟩ : BufTy).Contents (Elt F) → (⟨S8192, .i1⟩ : BufTy).Contents (Elt F)),
    nullary main_c_5 (constantI S_ 32 8192#32),
    unary main_c_5 main_v21 (broadcastInDim S8192 ![] bcast_S_S8192 : (⟨S_, .i32⟩ : BufTy).Contents (Elt F) → (⟨S8192, .i32⟩ : BufTy).Contents (Elt F)),
    binary main_arg2 main_v21 main_v22 (addi : (⟨S8192, .i32⟩ : BufTy).Contents (Elt F) → (⟨S8192, .i32⟩ : BufTy).Contents (Elt F) → (⟨S8192, .i32⟩ : BufTy).Contents (Elt F)),
    ternary main_v20 main_v22 main_arg2 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v23 main_v24 (broadcastInDim S8192x1 ![0] bcast_S8192_S8192x1_0 : (⟨S8192, .i32⟩ : BufTy).Contents (Elt F) → (⟨S8192x1, .i32⟩ : BufTy).Contents (Elt F)),
    binary main_arg0 main_v24 main_v25 ((fun x i => Host.gather gather_S4096x8192_S8192x1_S4096x8192_0_1_n_n_1_1_40961 x i) : (⟨S4096x8192, .f32⟩ : BufTy).Contents (Elt F) → (⟨S8192x1, .i32⟩ : BufTy).Contents (Elt F) → (⟨S4096x8192, .f32⟩ : BufTy).Contents (Elt F)),
    unary main_v11 main_v26 ((extractStridedSlice S8192x1 ![0, 0] · slices_S8192x4_S8192x1_0_0) : (⟨S8192x4, .f32⟩ : BufTy).Contents (Elt F) → (⟨S8192x1, .f32⟩ : BufTy).Contents (Elt F)),
    reshape main_v26 main_v27 rfl shapeCasts_S8192x1_S8192,
    unary main_v11 main_v28 ((extractStridedSlice S8192x1 ![0, 1] · slices_S8192x4_S8192x1_0_1) : (⟨S8192x4, .f32⟩ : BufTy).Contents (Elt F) → (⟨S8192x1, .f32⟩ : BufTy).Contents (Elt F)),
    reshape main_v28 main_v29 rfl shapeCasts_S8192x1_S8192,
    unary main_v11 main_v30 ((extractStridedSlice S8192x1 ![0, 2] · slices_S8192x4_S8192x1_0_2) : (⟨S8192x4, .f32⟩ : BufTy).Contents (Elt F) → (⟨S8192x1, .f32⟩ : BufTy).Contents (Elt F)),
    reshape main_v30 main_v31 rfl shapeCasts_S8192x1_S8192,
    unary main_v11 main_v32 ((extractStridedSlice S8192x1 ![0, 3] · slices_S8192x4_S8192x1_0_3) : (⟨S8192x4, .f32⟩ : BufTy).Contents (Elt F) → (⟨S8192x1, .f32⟩ : BufTy).Contents (Elt F)),
    reshape main_v32 main_v33 rfl shapeCasts_S8192x1_S8192,
    unary main_v29 main_v34 (broadcastInDim S1x8192 ![1] bcast_S8192_S1x8192_1 : (⟨S8192, .f32⟩ : BufTy).Contents (Elt F) → (⟨S1x8192, .f32⟩ : BufTy).Contents (Elt F)),
    unary main_v34 main_v35 (broadcastInDim S4096x8192 ![0, 1] bcast_S1x8192_S4096x8192_0_1 : (⟨S1x8192, .f32⟩ : BufTy).Contents (Elt F) → (⟨S4096x8192, .f32⟩ : BufTy).Contents (Elt F)),
    binary main_v35 main_v18 main_v36 (mulf : (⟨S4096x8192, .f32⟩ : BufTy).Contents (Elt F) → (⟨S4096x8192, .f32⟩ : BufTy).Contents (Elt F) → (⟨S4096x8192, .f32⟩ : BufTy).Contents (Elt F)),
    unary main_v27 main_v37 (broadcastInDim S1x8192 ![1] bcast_S8192_S1x8192_1 : (⟨S8192, .f32⟩ : BufTy).Contents (Elt F) → (⟨S1x8192, .f32⟩ : BufTy).Contents (Elt F)),
    unary main_v37 main_v38 (broadcastInDim S4096x8192 ![0, 1] bcast_S1x8192_S4096x8192_0_1 : (⟨S1x8192, .f32⟩ : BufTy).Contents (Elt F) → (⟨S4096x8192, .f32⟩ : BufTy).Contents (Elt F)),
    binary main_v38 main_v36 main_v39 (addf : (⟨S4096x8192, .f32⟩ : BufTy).Contents (Elt F) → (⟨S4096x8192, .f32⟩ : BufTy).Contents (Elt F) → (⟨S4096x8192, .f32⟩ : BufTy).Contents (Elt F)),
    unary main_v31 main_v40 (broadcastInDim S1x8192 ![1] bcast_S8192_S1x8192_1 : (⟨S8192, .f32⟩ : BufTy).Contents (Elt F) → (⟨S1x8192, .f32⟩ : BufTy).Contents (Elt F)),
    unary main_v40 main_v41 (broadcastInDim S4096x8192 ![0, 1] bcast_S1x8192_S4096x8192_0_1 : (⟨S1x8192, .f32⟩ : BufTy).Contents (Elt F) → (⟨S4096x8192, .f32⟩ : BufTy).Contents (Elt F)),
    binary main_v41 main_v25 main_v42 (mulf : (⟨S4096x8192, .f32⟩ : BufTy).Contents (Elt F) → (⟨S4096x8192, .f32⟩ : BufTy).Contents (Elt F) → (⟨S4096x8192, .f32⟩ : BufTy).Contents (Elt F)),
    binary main_v39 main_v42 main_v43 (addf : (⟨S4096x8192, .f32⟩ : BufTy).Contents (Elt F) → (⟨S4096x8192, .f32⟩ : BufTy).Contents (Elt F) → (⟨S4096x8192, .f32⟩ : BufTy).Contents (Elt F)),
    binary main_v18 main_v25 main_v44 (mulf : (⟨S4096x8192, .f32⟩ : BufTy).Contents (Elt F) → (⟨S4096x8192, .f32⟩ : BufTy).Contents (Elt F) → (⟨S4096x8192, .f32⟩ : BufTy).Contents (Elt F)),
    unary main_v33 main_v45 (broadcastInDim S1x8192 ![1] bcast_S8192_S1x8192_1 : (⟨S8192, .f32⟩ : BufTy).Contents (Elt F) → (⟨S1x8192, .f32⟩ : BufTy).Contents (Elt F)),
    unary main_v45 main_v46 (broadcastInDim S4096x8192 ![0, 1] bcast_S1x8192_S4096x8192_0_1 : (⟨S1x8192, .f32⟩ : BufTy).Contents (Elt F) → (⟨S4096x8192, .f32⟩ : BufTy).Contents (Elt F)),
    binary main_v46 main_v44 main_v47 (mulf : (⟨S4096x8192, .f32⟩ : BufTy).Contents (Elt F) → (⟨S4096x8192, .f32⟩ : BufTy).Contents (Elt F) → (⟨S4096x8192, .f32⟩ : BufTy).Contents (Elt F)),
    binary main_v43 main_v47 main_v48 (addf : (⟨S4096x8192, .f32⟩ : BufTy).Contents (Elt F) → (⟨S4096x8192, .f32⟩ : BufTy).Contents (Elt F) → (⟨S4096x8192, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub ..⟩

set_option maxRecDepth 8192 in
set_option maxHeartbeats 2000000 in
/-- On every device, from any memory with zero counters: every weakly fair execution of the program terminates
    with its result buffer at `result` of the arguments' launch contents and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v48).trans (by after_results_simp <;> rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.HandRun

end
-- ==== Proof.RefValue.lean ====
/-
  The reference's result read at an index.

  With both column indices non-negative the wrap "a negative index has 8192 added" keeps each index; the
  gather then reads x at row r and at the column the index names, read signed and clamped into [0, 8191]; each
  of the four coefficient columns, repeated down the rows, reads the coefficient table at gate n. So at row r
  and gate n the result is

      ((D n 0 + D n 1 * a) + D n 2 * b) + D n 3 * (a * b),   a = x r (col (ia n)),  b = x r (col (ib n)),

  with D the coefficient table: the shared specification's mixture, term for term. The table is carried as
  one opaque array throughout.
-/
import proofs.«410171_j48808008352082_3_alg».proof.Proof.RefRun
import proofs.«410171_j48808008352082_3_alg».proof.Proof.Spec
import Idealize.ShloMosaic.Lib.ValueIdx
import Idealize.ShloMosaic.Lib.Pipeline.Value
import Idealize.ShloMosaic.Lib.Affine

noncomputable section

namespace Cert.ReferenceIdeal.HandValue

open Cert.ReferenceIdeal Idealize.ShloMosaic Idealize.ShloMosaic.ValueIdx

variable [Cert.ReferenceIdeal.Facts]
open Facts₀ Facts

/-! ## The wrap of a non-negative index -/

/-- A non-negative index is not below zero, so the wrap's select keeps it. -/
theorem wrapIdx_apply (i : IVec S8192 32) (k : S8192.Idx) (h : 0 ≤ (i k).toInt) : HandRun.wrapIdx i k = i k := by
  unfold HandRun.wrapIdx
  rw [select_apply]
  have hc : cmpi .slt i (broadcastInDim S8192 ![] bcast_S_S8192 (constantI S_ 32 0#32)) k = 0#1 := by
    refine eq_zero_of_ne_one fun h1 => ?_
    have hlt : (i k).toInt < (0#32 : BitVec 32).toInt := IntOp.cmpi_slt.mp h1
    have h0 : (0#32 : BitVec 32).toInt = 0 := by decide
    omega
  rw [hc, select_zero]

/-! ## The gather at a row and a gate -/

/-- Row r, gate n of the gather: on the row axis only the offset coordinate r is left, on the column axis
    only the start index of gate n, read signed and clamped into [0, 8191]. -/
theorem gather_apply {α : Type} (x : S4096x8192.Idx → α) (idx : IVec S8192x1 32) (r : Fin 4096) (n : Fin 8192) :
    Host.gather gather_S4096x8192_S8192x1_S4096x8192_0_1_n_n_1_1_40961 x idx (ix2 r n)
      = x (ix2 r (Cert.GateMix.col (idx (ix2 n 0)))) := by
  unfold Host.gather
  congr 1
  funext a
  match a with
  | ⟨0, _⟩ =>
    refine Fin.ext ?_
    show GatherDims.start gather_S4096x8192_S8192x1_S4096x8192_0_1_n_n_1_1_40961 (ix2 r n) idx 0
        + GatherDims.batchCoord gather_S4096x8192_S8192x1_S4096x8192_0_1_n_n_1_1_40961 (ix2 r n) 0
        + GatherDims.offCoord gather_S4096x8192_S8192x1_S4096x8192_0_1_n_n_1_1_40961 (ix2 r n) 0 = r.val
    have hs : GatherDims.start gather_S4096x8192_S8192x1_S4096x8192_0_1_n_n_1_1_40961 (ix2 r n) idx 0 = 0 := by
      unfold GatherDims.start
      exact dif_neg (show (0 : Fin 2) ∉ ([1] : List (Fin 2)) by decide)
    rw [GatherDims.batchCoord_eq_zero _ _ _ List.not_mem_nil, hs]
    have hk : (0 : Fin S4096x8192.rank) ∈ GatherDims.sKept gather_S4096x8192_S8192x1_S4096x8192_0_1_n_n_1_1_40961 :=
      (GatherDims.mem_sKept _ _).mpr ⟨show (0 : Fin 2) ∉ ([1] : List (Fin 2)) by decide, List.not_mem_nil⟩
    unfold GatherDims.offCoord
    rw [dif_pos hk]
    simp only [Nat.add_zero, Nat.zero_add]
    rfl
  | ⟨1, _⟩ =>
    refine Fin.ext ?_
    show GatherDims.start gather_S4096x8192_S8192x1_S4096x8192_0_1_n_n_1_1_40961 (ix2 r n) idx 1
        + GatherDims.batchCoord gather_S4096x8192_S8192x1_S4096x8192_0_1_n_n_1_1_40961 (ix2 r n) 1
        + GatherDims.offCoord gather_S4096x8192_S8192x1_S4096x8192_0_1_n_n_1_1_40961 (ix2 r n) 1
        = (Cert.GateMix.col (idx (ix2 n 0))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x8192_S8192x1_S4096x8192_0_1_n_n_1_1_40961.startIndexMap
      from List.mem_singleton.mpr rfl)]
    have hsi : gather_S4096x8192_S8192x1_S4096x8192_0_1_n_n_1_1_40961.siIdx (ix2 r n)
        ⟨List.idxOf (1 : Fin 2) gather_S4096x8192_S8192x1_S4096x8192_0_1_n_n_1_1_40961.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl

/-- The gathered column of gate n at row r, for a non-negative index: x at row r and the column the index
    names. -/
theorem cols_apply (x : FVec Ideal S4096x8192 .f32) (i : IVec S8192 32) (hi : ∀ k : S8192.Idx, 0 ≤ (i k).toInt)
    (r : Fin 4096) (n : Fin 8192) :
    HandRun.cols x i (ix2 r n) = x (ix2 r (Cert.GateMix.col (i (ix1 n)))) := by
  unfold HandRun.cols
  rw [gather_apply]
  have hb : broadcastInDim S8192x1 ![0] bcast_S8192_S8192x1_0 (HandRun.wrapIdx i) (ix2 n 0) = HandRun.wrapIdx i (ix1 n) :=
    broadcastInDim_apply _ _ _ _ (ix1 n) fun a => by
      match a with
      | ⟨0, _⟩ => rfl
  rw [hb, wrapIdx_apply i (ix1 n) (hi _)]

/-! ## A coefficient column at a row and a gate -/

/-- Column c of the coefficient table, repeated down the rows, read at row r and gate n: the table at gate n
    and column c. -/
theorem coefCol_apply (D : FVec Ideal S8192x4 .f32) (c : Fin 4) (h : S8192x4.Slices ![0, c.val] S8192x1)
    (r : Fin 4096) (n : Fin 8192) : HandRun.coefCol D c.val h (ix2 r n) = D (ix2 n c) := by
  unfold HandRun.coefCol
  refine (broadcastInDim_apply _ _ _ (ix2 r n) (ix2 0 n) fun a => ?_).trans ?_
  · match a with
    | ⟨0, _⟩ => rfl
    | ⟨1, _⟩ => rfl
  refine (broadcastInDim_apply _ _ _ (ix2 (0 : Fin 1) n) (ix1 n) fun a => ?_).trans ?_
  · match a with
    | ⟨0, _⟩ => rfl
  refine (shapeCast_apply _ _ (ix1 n) (ix2 n (0 : Fin 1)) ?_).trans ?_
  · rw [Shape.rowMajor_val_two, Shape.rowMajor_val_one]
    show n.val * 1 + 0 = n.val
    omega
  refine extractStridedSlice_apply _ _ _ (ix2 n (0 : Fin 1)) (ix2 n c) fun a => ?_
  match a with
  | ⟨0, _⟩ => show n.val = 0 + n.val; omega
  | ⟨1, _⟩ => show c.val = c.val + 0; omega

/-! ## The result is the specification's mixture -/

/-- With both index arrays non-negative, the program's result is the specification's mixture of the arguments
    under the coefficient table. -/
theorem result_eq_mix (x : FVec Ideal S4096x8192 .f32) (ia ib : IVec S8192 32) (w : FVec Ideal S8192x16 .f32)
    (ha : ∀ n : S8192.Idx, 0 ≤ (ia n).toInt) (hb : ∀ n : S8192.Idx, 0 ≤ (ib n).toInt) :
    HandRun.result x ia ib w = Cert.GateMix.mix x ia ib (HandRun.coef w) := by
  funext j
  obtain ⟨r, n, rfl⟩ : ∃ (r : Fin 4096) (n : Fin 8192), j = ix2 r n := ⟨j 0, j 1, eq_ix2 j⟩
  rw [Cert.GateMix.mix_apply]
  unfold HandRun.result Cert.GateMix.mixAt
  generalize HandRun.coef w = D
  simp only [addf_apply, mulf_apply]
  have e0 : HandRun.coefCol D 0 slices_S8192x4_S8192x1_0_0 (ix2 r n) = D (ix2 n 0) := coefCol_apply D 0 _ r n
  have e1 : HandRun.coefCol D 1 slices_S8192x4_S8192x1_0_1 (ix2 r n) = D (ix2 n 1) := coefCol_apply D 1 _ r n
  have e2 : HandRun.coefCol D 2 slices_S8192x4_S8192x1_0_2 (ix2 r n) = D (ix2 n 2) := coefCol_apply D 2 _ r n
  have e3 : HandRun.coefCol D 3 slices_S8192x4_S8192x1_0_3 (ix2 r n) = D (ix2 n 3) := coefCol_apply D 3 _ r n
  rw [e0, e1, e2, e3, cols_apply x ia ha, cols_apply x ib hb]

end Cert.ReferenceIdeal.HandValue

end
-- ==== Proof.PreRange.lean ====
/-
  The index range, read off the precondition.

  The precondition is a conjunction of four "all" statements, the last two about the two index
  vectors: every word of the vector, read signed, is at least 0 and below 8192. Each "all" is a
  reduction by "and" from the constant 1; a reduction by "and" whose result is 1 met only 1s, and a
  comparison word that is 1 says the order relation it names of its operands, read signed.
-/
import proofs.«410171_j48808008352082_3_alg».proof.Pre_finite_inputs
import Idealize.ShloMosaic.PureOps.Ideal
import Idealize.ShloMosaic.Lib.Affine
import Idealize.ShloMosaic.Lib.ReduceAll
import Idealize.ShloMosaic.Lib.ValueIdx

noncomputable section

namespace Cert.Pre_finite_inputs.Range

open Cert.Pre_finite_inputs Idealize.ShloMosaic

variable [Cert.Pre_finite_inputs.Facts]
open Cert.Pre_finite_inputs.Facts

/-- The scalar shape has one index. -/
instance : Subsingleton S_.Idx := ⟨fun a b => funext fun d => d.elim0⟩

/-- One "all" conjunct about an index vector: when the reduction by "and" of the lanewise test
    (0 ≤ word, signed) and (word < 8192, signed) is 1, every lane's word is in [0, 8192). -/
theorem lanes_in_range (v : IVec S8192 32) (init : IVec S_ 1)
    (e : Host.reduce IntOp.andi
          (andi (cmpi .sge v (broadcastInDim S8192 ![] bcast_S_S8192 (constantI S_ 32 0#32)))
            (cmpi .slt v (broadcastInDim S8192 ![] bcast_S_S8192 (constantI S_ 32 8192#32))))
          init reducesTo_S8192_S_d0 h_S_ ValueIdx.ix0 = 1#1)
    (n : S8192.Idx) : 0 ≤ (v n).toInt ∧ (v n).toInt < 8192 := by
  -- the lane's bit is 1
  have hn := Host.reduce_andi_all _ _ _ _ _ e n
  -- it is the "and" of the two comparison bits
  obtain ⟨hge, hlt⟩ := IntOp.andi_eq_one.1 hn
  -- the broadcast scalars read as the constants they are
  have hge' : IntOp.cmpi .sge (v n) 0#32 = 1#1 := hge
  have hlt' : IntOp.cmpi .slt (v n) 8192#32 = 1#1 := hlt
  have h0 := IntOp.cmpi_sge.1 hge'
  have h1 := IntOp.cmpi_slt.1 hlt'
  rw [show (0#32 : BitVec 32).toInt = 0 from by decide] at h0
  rw [show (8192#32 : BitVec 32).toInt = 8192 from by decide] at h1
  exact ⟨h0, h1⟩

/-- The precondition's two integer conjuncts: every first-operand index and every second-operand
    index is a column of the input, 0 ≤ index < 8192, read signed. -/
theorem range_of_pre (x : FVec Ideal S4096x8192 .f32) (ia ib : IVec S8192 32) (w : FVec Ideal S8192x16 .f32)
    (h : fn (F := Ideal) x ia ib w = fun _ => 1#1) :
    (∀ n : S8192.Idx, 0 ≤ (ia n).toInt ∧ (ia n).toInt < 8192) ∧ (∀ n : S8192.Idx, 0 ≤ (ib n).toInt ∧ (ib n).toInt < 8192) := by
  have e := congrFun h ValueIdx.ix0
  dsimp only [fn, fn_part1] at e
  -- the result is ((floats of x ∧ floats of w) ∧ range of ia) ∧ range of ib
  obtain ⟨e3, eb⟩ := IntOp.andi_eq_one.1 e
  obtain ⟨-, ea⟩ := IntOp.andi_eq_one.1 e3
  exact ⟨lanes_in_range ia _ ea, lanes_in_range ib _ eb⟩

end Cert.Pre_finite_inputs.Range

end
-- ==== Proof.Bridge.lean ====
/-
  Both programs compute the coefficient table by the same host operations on the gate logits:
  the softmax along the sixteen gates, then the product with the same literal 16 x 4 table. The
  two printed programs spell the operations over their own copies of the shapes, the shape facts
  and the literal table; the copies are equal, so the two tables are one array.
-/
import proofs.«410171_j48808008352082_3_alg».proof.Proof.HostPrefix
import proofs.«410171_j48808008352082_3_alg».proof.Proof.RefRun

noncomputable section

namespace Cert.Proof.Bridge

open Idealize.ShloMosaic Idealize.ShloMosaic.TcCoe Idealize.ShloMosaic.StableHlo Idealize.SL.Sem

/-- The two copies of the literal gate table agree entry by entry. -/
theorem lit_eq : Cert.KernelIdeal.lit0 = Cert.ReferenceIdeal.lit0 := by
  funext i
  revert i
  decide

set_option maxHeartbeats 1000000 in
/-- The coefficient table the kernel's host code leaves in its buffer is the reference's. -/
theorem coef_eq (m : (ℓ : Loc Cert.KernelIdeal.nD Cert.KernelIdeal.τ Cert.KernelIdeal.sig) → Buf (Elt Ideal) ℓ)
    (c : Dev Cert.KernelIdeal.nD) :
    Cert.KernelIdeal.Host.coefArr m c
      = Cert.ReferenceIdeal.HandRun.coef (m ((c : Thread Cert.KernelIdeal.nD Cert.KernelIdeal.τ).loc Cert.KernelIdeal.main_arg3)) := by
  dsimp only [Cert.KernelIdeal.Host.coefArr, Cert.KernelIdeal.Gen.V, Cert.KernelIdeal.Gen.hostOps0]
  after_results
  unfold Cert.ReferenceIdeal.HandRun.coef Cert.ReferenceIdeal.HandRun.expShift
  rw [lit_eq]
  rfl

end Cert.Proof.Bridge

end
-- ==== Proof.lean ====
/-
  The certificate of a layer of 8192 two-input soft logic gates over a 4096 x 8192 matrix x.

  Gate n reads columns ia n and ib n of every row and returns the mixture of the sixteen relaxed
  binary gates, which collapses to one affine form in (1, a, b, a*b):

      out r n = c0 n + ca n * a + cb n * b + cab n * (a * b),    a = x r (ia n),  b = x r (ib n),

  with (c0, ca, cb, cab) = softmax(logits n) times the 16 x 4 table of gate coefficients.

  The kernel gathers a and b by a product with a 0/1 matrix: over a grid of (row tile, gate tile,
  reduction step) it multiplies a 512 x 2048 block of x with the 2048 x 2048 matrix whose entry at
  (position, lane) is 1 exactly when the position is the lane's wanted column, accumulates the four
  reduction steps, and combines at the last. The reference gathers with an index operation that
  wraps a negative index and clamps the result into the row. On extended reals a product with 0 is
  0 and with 1 is the factor, so once every index lies in [0, 8192) - the precondition says so -
  both gathers read x r (ia n) and x r (ib n), and the two affine forms are the same expression in
  the same grouping. The coefficient table is computed by the same host operations in both
  programs and is never opened.

  The three frames: the kernel's two are the generated frame runs; the reference is a straight
  line of host operations, whose run gives its frame. The idealization rewrote nothing, so
  preservation is trivial.
-/
import proofs.«410171_j48808008352082_3_alg».proof.Defs
import proofs.«410171_j48808008352082_3_alg».proof.Proof.Gen.Kernel
import proofs.«410171_j48808008352082_3_alg».proof.Proof.Gen.Kernel.Skeleton
import proofs.«410171_j48808008352082_3_alg».proof.Proof.Gen.Kernel.Launch
import proofs.«410171_j48808008352082_3_alg».proof.Proof.Gen.Kernel.Points
import proofs.«410171_j48808008352082_3_alg».proof.Proof.Gen.Kernel.Frame
import proofs.«410171_j48808008352082_3_alg».proof.Proof.Gen.KernelIdeal
import proofs.«410171_j48808008352082_3_alg».proof.Proof.Gen.KernelIdeal.Skeleton
import proofs.«410171_j48808008352082_3_alg».proof.Proof.Gen.KernelIdeal.Launch
import proofs.«410171_j48808008352082_3_alg».proof.Proof.Gen.KernelIdeal.Points
import proofs.«410171_j48808008352082_3_alg».proof.Proof.Gen.KernelIdeal.Frame
import proofs.«410171_j48808008352082_3_alg».proof.Proof.Gen.ReferenceIdeal
import proofs.«410171_j48808008352082_3_alg».proof.Proof.Gen.Pre_finite_inputs
import proofs.«410171_j48808008352082_3_alg».proof.Proof.KValue
import proofs.«410171_j48808008352082_3_alg».proof.Proof.RefValue
import proofs.«410171_j48808008352082_3_alg».proof.Proof.PreRange
import proofs.«410171_j48808008352082_3_alg».proof.Proof.Bridge
import Idealize.ShloMosaic.Adequacy
import Idealize.ShloMosaic.Init

noncomputable section

namespace Cert.Proof

open Idealize.ShloMosaic Idealize.ShloMosaic.TcCoe Idealize.SL.Sem

/-- A 32-bit word that is non-negative and below 8192 as a signed number is below 8192 as an unsigned one. -/
theorem toNat_lt_of_toInt (b : BitVec 32) (h0 : 0 ≤ b.toInt) (h1 : b.toInt < 8192) : b.toNat < 8192 := by
  have hlt := b.isLt
  by_cases h : 2 * b.toNat < 2 ^ 32
  · rw [BitVec.toInt_eq_toNat_cond, if_pos h] at h1; omega
  · rw [BitVec.toInt_eq_toNat_cond, if_neg h] at h0; omega

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

/-- The kernel's result array ends at the gate mixture of its arguments over the table its host code computed, the
    reference's at the gate mixture of arguments that agree over its own table; the tables are one array. -/
theorem algebraic : Cert.algebraic_KernelIdeal_ReferenceIdeal := by
  intro m ρ m' ρ' hpre hagree
  have hrange := fun c : Dev Cert.KernelIdeal.nD => Cert.Pre_finite_inputs.Range.range_of_pre _ _ _ _ (hpre c)
  have hr : ∀ c : Dev Cert.KernelIdeal.nD, Cert.KernelIdeal.KValue.InRange m c := fun c =>
    ⟨fun n => toNat_lt_of_toInt _ ((hrange c).1 n).1 ((hrange c).1 n).2,
     fun n => toNat_lt_of_toInt _ ((hrange c).2 n).1 ((hrange c).2 n).2⟩
  refine ⟨fun c => Cert.KernelIdeal.KValue.result m c, Cert.KernelIdeal.KValue.run m ρ hr, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2.1, (hagree c).2.2.2,
    Cert.ReferenceIdeal.HandValue.result_eq_mix _ _ _ _ (fun n => ((hrange c).1 n).1) (fun n => ((hrange c).2 n).1),
    ← Cert.Proof.Bridge.coef_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
